-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64x64 .f32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S64x64 .f32) (main_arg9 : FVec F S64 .f32) (main_arg10 : FVec F S64x64 .f32) (main_arg11 : FVec F S64 .f32) (main_arg12 : FVec F S64x64 .f32) (main_arg13 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 78
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000x1, .f32⟩
  | .hbm, ⟨20, _⟩ => ⟨S_, .f32⟩
  | .hbm, ⟨21, _⟩ => ⟨S100000x1, .f32⟩
  | .hbm, ⟨22, _⟩ => ⟨S1600000x1, .i32⟩
  | .hbm, ⟨23, _⟩ => ⟨S100000x1, .f32⟩
  | .hbm, ⟨24, _⟩ => ⟨S_, .f32⟩
  | .hbm, ⟨25, _⟩ => ⟨S100000x1, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S64x64, .f32⟩
  | .hbm, ⟨44, _⟩ => ⟨S1x64, .f32⟩
  | .hbm, ⟨45, _⟩ => ⟨S1x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S64x64, .f32⟩
  | .hbm, ⟨66, _⟩ => ⟨S64x64, .f32⟩
  | .hbm, ⟨67, _⟩ => ⟨S1x64, .f32⟩
  | .hbm, ⟨68, _⟩ => ⟨S1x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S64x64, .f32⟩
  | .hbm, ⟨74, _⟩ => ⟨S64x64, .f32⟩
  | .hbm, ⟨75, _⟩ => ⟨S1x64, .f32⟩
  | .hbm, ⟨76, _⟩ => ⟨S1x64, .f32⟩
  | .hbm, ⟨77, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S64x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call0_cst : Ref sig .tc := ⟨.hbm, 47, rfl⟩
abbrev main_call0_v0 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call1_cst : Ref sig .tc := ⟨.hbm, 70, rfl⟩
abbrev main_call1_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000x1_S1600000x1_S1600000x1_1_0_0_1_wf : ScatterDims.WF S100000x1 S1600000x1 S1600000x1 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000 : Shape := ⟨1, ![100000]⟩

abbrev nBuf : Space → Nat
  | .hbm => 124
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S_, .f32⟩
  | .hbm, ⟨32, _⟩ => ⟨S1600000x1, .f32⟩
  | .hbm, ⟨33, _⟩ => ⟨S_, .f32⟩
  | .hbm, ⟨34, _⟩ => ⟨S100000x1, .f32⟩
  | .hbm, ⟨35, _⟩ => ⟨S1600000x1, .i32⟩
  | .hbm, ⟨36, _⟩ => ⟨S100000x1, .f32⟩
  | .hbm, ⟨37, _⟩ => ⟨S_, .f32⟩
  | .hbm, ⟨38, _⟩ => ⟨S100000x1, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S64x64, .f32⟩
  | .hbm, ⟨48, _⟩ => ⟨S100000x64, .f32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000, .f32⟩
  | .hbm, ⟨56, _⟩ => ⟨S100000x1, .f32⟩
  | .hbm, ⟨57, _⟩ => ⟨S100000x1, .f32⟩
  | .hbm, ⟨58, _⟩ => ⟨S_, .f32⟩
  | .hbm, ⟨59, _⟩ => ⟨S100000x1, .f32⟩
  | .hbm, ⟨60, _⟩ => ⟨S100000x1, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x64, .f32⟩
  | .hbm, ⟨75, _⟩ => ⟨S_, .f32⟩
  | .hbm, ⟨76, _⟩ => ⟨S100000x64, .f32⟩
  | .hbm, ⟨77, _⟩ => ⟨S1600000x1, .i32⟩
  | .hbm, ⟨78, _⟩ => ⟨S100000x64, .f32⟩
  | .hbm, ⟨79, _⟩ => ⟨S_, .f32⟩
  | .hbm, ⟨80, _⟩ => ⟨S1600000x1, .f32⟩
  | .hbm, ⟨81, _⟩ => ⟨S_, .f32⟩
  | .hbm, ⟨82, _⟩ => ⟨S100000x1, .f32⟩
  | .hbm, ⟨83, _⟩ => ⟨S1600000x1, .i32⟩
  | .hbm, ⟨84, _⟩ => ⟨S100000x1, .f32⟩
  | .hbm, ⟨85, _⟩ => ⟨S_, .f32⟩
  | .hbm, ⟨86, _⟩ => ⟨S100000x1, .f32⟩
  | .hbm, ⟨87, _⟩ => ⟨S100000x1, .f32⟩
  | .hbm, ⟨88, _⟩ => ⟨S100000x64, .f32⟩
  | .hbm, ⟨89, _⟩ => ⟨S100000x64, .f32⟩
  | .hbm, ⟨90, _⟩ => ⟨S64x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S64x64, .f32⟩
  | .hbm, ⟨96, _⟩ => ⟨S100000x64, .f32⟩
  | .hbm, ⟨97, _⟩ => ⟨S100000x64, .f32⟩
  | .hbm, ⟨98, _⟩ => ⟨S1x64, .f32⟩
  | .hbm, ⟨99, _⟩ => ⟨S100000x64, .f32⟩
  | .hbm, ⟨100, _⟩ => ⟨S100000x64, .f32⟩
  | .hbm, ⟨101, _⟩ => ⟨S100000x64, .f32⟩
  | .hbm, ⟨102, _⟩ => ⟨S_, .f32⟩
  | .hbm, ⟨103, _⟩ => ⟨S100000, .f32⟩
  | .hbm, ⟨104, _⟩ => ⟨S100000x1, .f32⟩
  | .hbm, ⟨105, _⟩ => ⟨S100000x1, .f32⟩
  | .hbm, ⟨106, _⟩ => ⟨S_, .f32⟩
  | .hbm, ⟨107, _⟩ => ⟨S100000x1, .f32⟩
  | .hbm, ⟨108, _⟩ => ⟨S100000x1, .f32⟩
  | .hbm, ⟨109, _⟩ => ⟨S100000x64, .f32⟩
  | .hbm, ⟨110, _⟩ => ⟨S100000x64, .f32⟩
  | .hbm, ⟨111, _⟩ => ⟨S_, .f32⟩
  | .hbm, ⟨112, _⟩ => ⟨S100000x64, .f32⟩
  | .hbm, ⟨113, _⟩ => ⟨S100000x64, .f32⟩
  | .hbm, ⟨114, _⟩ => ⟨S64x64, .f32⟩
  | .hbm, ⟨115, _⟩ => ⟨S100000x64, .f32⟩
  | .hbm, ⟨116, _⟩ => ⟨S1x64, .f32⟩
  | .hbm, ⟨117, _⟩ => ⟨S100000x64, .f32⟩
  | .hbm, ⟨118, _⟩ => ⟨S100000x64, .f32⟩
  | .hbm, ⟨119, _⟩ => ⟨S64x64, .f32⟩
  | .hbm, ⟨120, _⟩ => ⟨S100000x64, .f32⟩
  | .hbm, ⟨121, _⟩ => ⟨S1x64, .f32⟩
  | .hbm, ⟨122, _⟩ => ⟨S100000x64, .f32⟩
  | .hbm, ⟨123, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call0_cst : Ref sig .tc := ⟨.hbm, 63, rfl⟩
abbrev main_call0_v0 : Ref sig .tc := ⟨.hbm, 64, rfl⟩
abbrev main_v41 : Ref sig .tc := ⟨.hbm, 65, rfl⟩
abbrev main_c_6 : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_12 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_13 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_call1_cst : Ref sig .tc := ⟨.hbm, 111, rfl⟩
abbrev main_call1_v0 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The node-wise functions of a two-layer neighbourhood-averaging network, row by row, on the extended reals.

  Every function here sends row `r` of its row-indexed operands to row `r` of its result and looks at no other row, so
  the same definition serves a block of rows and the whole array (`sageRows_congr`, `postRows_congr`).

    * `lin x wT b r j = (∑ₖ x(r, k) · wT(k, j)) + b(0, j)`: one affine map of row `r`;
    * `sagePre x p wlT wrT bl br r j = lin x wlT bl r j + (∑ₖ p(r, k) · wrT(k, j)) + br(0, j)`: the layer before its
      normalisation, the node's own row `x(r, ·)` and its averaged neighbourhood `p(r, ·)` each through its own matrix;
    * `sageRows … (r, j) = sagePre r j / max (√(∑ⱼ' (sagePre r j')²)) ε`: the row divided by its Euclidean length, the length
      kept above the literal `ε`;
    * `postRows h w1T b1 w2T b2 (r, j) = (∑ₖ lin h w1T b1 r k · w2T(k, j)) + b2(0, j)`: two affine maps in a row.
-/
import Idealize.ShloMosaic.PureOps.Ideal.Laws
import Idealize.ShloMosaic.Lib.ValueIdx

noncomputable section

namespace Cert.Spec

open Idealize.ShloMosaic Idealize.ShloMosaic.ValueIdx

variable {A B : Nat}

/-- One affine map of row `r`, at lane `j`. -/
def lin (x : FVec Ideal ⟨2, ![A, 64]⟩ .f32) (wT : FVec Ideal ⟨2, ![64, 64]⟩ .f32) (b : FVec Ideal ⟨2, ![1, 64]⟩ .f32)
    (r : Fin A) (j : Fin 64) : EReal :=
  (∑ k : Fin 64, x (ix2 r k) * wT (ix2 k j)) + b (ix2 0 j)

/-- The layer before its normalisation: row `r` of `x` and row `r` of `p`, each through its own matrix and bias. -/
def sagePre (x p : FVec Ideal ⟨2, ![A, 64]⟩ .f32) (wlT wrT : FVec Ideal ⟨2, ![64, 64]⟩ .f32)
    (bl br : FVec Ideal ⟨2, ![1, 64]⟩ .f32) (r : Fin A) (j : Fin 64) : EReal :=
  lin x wlT bl r j + (∑ k : Fin 64, p (ix2 r k) * wrT (ix2 k j)) + br (ix2 0 j)

/-- The layer: each row divided by its Euclidean length, the length kept above `ε`. -/
def sageRows (x p : FVec Ideal ⟨2, ![A, 64]⟩ .f32) (wlT wrT : FVec Ideal ⟨2, ![64, 64]⟩ .f32)
    (bl br : FVec Ideal ⟨2, ![1, 64]⟩ .f32) : FVec Ideal ⟨2, ![A, 64]⟩ .f32 := fun y =>
  Ideal.div (sagePre x p wlT wrT bl br (y 0) (y 1))
    (max (Ideal.sqrt (∑ j : Fin 64, sagePre x p wlT wrT bl br (y 0) j * sagePre x p wlT wrT bl br (y 0) j))
      (Ideal.ofBits .f32 0x2B8CBCCC#32))

/-- Two affine maps in a row. -/
def postRows (h : FVec Ideal ⟨2, ![A, 64]⟩ .f32) (w1T : FVec Ideal ⟨2, ![64, 64]⟩ .f32) (b1 : FVec Ideal ⟨2, ![1, 64]⟩ .f32)
    (w2T : FVec Ideal ⟨2, ![64, 64]⟩ .f32) (b2 : FVec Ideal ⟨2, ![1, 64]⟩ .f32) : FVec Ideal ⟨2, ![A, 64]⟩ .f32 := fun y =>
  (∑ k : Fin 64, lin h w1T b1 (y 0) k * w2T (ix2 k (y 1))) + b2 (ix2 0 (y 1))

theorem sageRows_ix2 (x p : FVec Ideal ⟨2, ![A, 64]⟩ .f32) (wlT wrT : FVec Ideal ⟨2, ![64, 64]⟩ .f32)
    (bl br : FVec Ideal ⟨2, ![1, 64]⟩ .f32) (r : Fin A) (j : Fin 64) :
    sageRows x p wlT wrT bl br (ix2 r j) = Ideal.div (sagePre x p wlT wrT bl br r j)
      (max (Ideal.sqrt (∑ j' : Fin 64, sagePre x p wlT wrT bl br r j' * sagePre x p wlT wrT bl br r j'))
        (Ideal.ofBits .f32 0x2B8CBCCC#32)) := rfl

theorem postRows_ix2 (h : FVec Ideal ⟨2, ![A, 64]⟩ .f32) (w1T : FVec Ideal ⟨2, ![64, 64]⟩ .f32) (b1 : FVec Ideal ⟨2, ![1, 64]⟩ .f32)
    (w2T : FVec Ideal ⟨2, ![64, 64]⟩ .f32) (b2 : FVec Ideal ⟨2, ![1, 64]⟩ .f32) (r : Fin A) (j : Fin 64) :
    postRows h w1T b1 w2T b2 (ix2 r j) = (∑ k : Fin 64, lin h w1T b1 r k * w2T (ix2 k j)) + b2 (ix2 0 j) := rfl

/-- `lin` at row `r` sees only row `r`. -/
theorem lin_congr (x : FVec Ideal ⟨2, ![A, 64]⟩ .f32) (x' : FVec Ideal ⟨2, ![B, 64]⟩ .f32) (wT : FVec Ideal ⟨2, ![64, 64]⟩ .f32)
    (b : FVec Ideal ⟨2, ![1, 64]⟩ .f32) (r : Fin A) (r' : Fin B) (hx : ∀ k : Fin 64, x (ix2 r k) = x' (ix2 r' k)) (j : Fin 64) :
    lin x wT b r j = lin x' wT b r' j := by
  unfold lin
  exact congrArg (· + b (ix2 0 j)) (Finset.sum_congr rfl fun k _ => by rw [hx k])

theorem sagePre_congr (x p : FVec Ideal ⟨2, ![A, 64]⟩ .f32) (x' p' : FVec Ideal ⟨2, ![B, 64]⟩ .f32)
    (wlT wrT : FVec Ideal ⟨2, ![64, 64]⟩ .f32) (bl br : FVec Ideal ⟨2, ![1, 64]⟩ .f32) (r : Fin A) (r' : Fin B)
    (hx : ∀ k : Fin 64, x (ix2 r k) = x' (ix2 r' k)) (hp : ∀ k : Fin 64, p (ix2 r k) = p' (ix2 r' k)) (j : Fin 64) :
    sagePre x p wlT wrT bl br r j = sagePre x' p' wlT wrT bl br r' j := by
  unfold sagePre
  rw [lin_congr x x' wlT bl r r' hx j, Finset.sum_congr rfl fun k _ => by rw [hp k]]

/-- A block of rows of the layer is the layer of the blocks of rows. -/
theorem sageRows_congr (x p : FVec Ideal ⟨2, ![A, 64]⟩ .f32) (x' p' : FVec Ideal ⟨2, ![B, 64]⟩ .f32)
    (wlT wrT : FVec Ideal ⟨2, ![64, 64]⟩ .f32) (bl br : FVec Ideal ⟨2, ![1, 64]⟩ .f32) (r : Fin A) (r' : Fin B)
    (hx : ∀ k : Fin 64, x (ix2 r k) = x' (ix2 r' k)) (hp : ∀ k : Fin 64, p (ix2 r k) = p' (ix2 r' k)) (j : Fin 64) :
    sageRows x p wlT wrT bl br (ix2 r j) = sageRows x' p' wlT wrT bl br (ix2 r' j) := by
  rw [sageRows_ix2, sageRows_ix2]
  simp only [sagePre_congr x p x' p' wlT wrT bl br r r' hx hp]

theorem postRows_congr (h : FVec Ideal ⟨2, ![A, 64]⟩ .f32) (h' : FVec Ideal ⟨2, ![B, 64]⟩ .f32)
    (w1T : FVec Ideal ⟨2, ![64, 64]⟩ .f32) (b1 : FVec Ideal ⟨2, ![1, 64]⟩ .f32) (w2T : FVec Ideal ⟨2, ![64, 64]⟩ .f32)
    (b2 : FVec Ideal ⟨2, ![1, 64]⟩ .f32) (r : Fin A) (r' : Fin B) (hh : ∀ k : Fin 64, h (ix2 r k) = h' (ix2 r' k)) (j : Fin 64) :
    postRows h w1T b1 w2T b2 (ix2 r j) = postRows h' w1T b1 w2T b2 (ix2 r' j) := by
  rw [postRows_ix2, postRows_ix2]
  simp only [lin_congr h h' w1T b1 r r' hh]

end Cert.Spec

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.Pay.lean ====
/-
  The three kernel bodies' stored values, read at `(p, q)` on the extended reals, are the row-wise functions of the
  node-wise network.

    * the printed contraction record contracts the left operand's axis 1 with the right operand's axis 0 and has no batch
      axes, so the product into the zero word at `(p, q)` is `∑ₖ a(p, k) · b(k, q)`;
    * a `[1, 64]` row broadcast down the rows reads, at `(p, q)`, the row at `(0, q)`;
    * a narrowing format change is the identity on extended reals, and a cast to the same shape is the identity;
    * a lane sum of squares, cast to a column, square-rooted, kept above the literal and broadcast along the lanes reads, at
      `(p, q)`, `max (√(∑ⱼ v(p, j)²)) ε`.
-/
import proofs.«156580_j33887291966072_1_alg».proof.Proof.Gen.KernelIdeal.Skeleton
import proofs.«156580_j33887291966072_1_alg».proof.Proof.Spec
import proofs.«156580_j33887291966072_1_alg».proof.Proof.LibRowwise
import Idealize.ShloMosaic.Lib.ValueIdx
import Idealize.ShloMosaic.Lib.Pipeline.Value
import Idealize.ShloMosaic.Lib.ValueLayout
import Idealize.ShloMosaic.PureOps.Ideal.Laws

noncomputable section

namespace Cert.Pay

open Cert.KernelIdeal Cert.KernelIdeal.Gen Idealize.ShloMosaic Idealize.ShloMosaic.ValueIdx

variable [Cert.KernelIdeal.Facts]

/-- The printed contraction record is the plain matrix product's. -/
theorem dot_eq_plain : dot_S5000x64_S64x64_S5000x64_1_0_0_1_n_n = DotDims.plain 5000 64 64 :=
  Cert.Lib.Rowwise.eq_plain _ rfl rfl rfl rfl rfl rfl

/-- The product into the zero word at `(p, q)`: the sum over the contracted coordinate. -/
theorem mm_apply {φ₁ φ₂ : FTy} (a : FVec Ideal S5000x64 φ₁) (b : FVec Ideal S64x64 φ₂) (p : Fin 5000) (q : Fin 64) :
    matmul (F := Ideal) dot_S5000x64_S64x64_S5000x64_1_0_0_1_n_n none a b (constant (F := Ideal) S5000x64 .f32 0x00000000#32) (ix2 p q)
      = ∑ k : Fin 64, a (ix2 p k) * b (ix2 k q) := by
  rw [dot_eq_plain]
  exact Cert.Lib.Rowwise.plain_matmul_zero_apply none a b p q

/-- A row `[1, 64]` broadcast down the rows reads, at `(p, q)`, the row at `(0, q)`. -/
theorem rowBroadcast_apply {α : Type} (v : S1x64.Idx → α) (h : S1x64.Broadcasts S5000x64) (p : Fin 5000) (q : Fin 64) :
    broadcastTo S5000x64 v h (ix2 p q) = v (ix2 0 q) := by
  refine broadcastTo_apply v h (ix2 p q) (ix2 0 q) fun a => ?_
  match a with
  | ⟨0, _⟩ => exact (if_pos rfl).symm
  | ⟨1, _⟩ => exact (if_neg (show ¬ (64 : Nat) = 1 by decide)).symm

/-- One affine map of a row, at `(p, q)`. -/
theorem lin_apply (a : FVec Ideal S5000x64 .f32) (w : FVec Ideal S64x64 .f32) (b : FVec Ideal S1x64 .f32)
    (p : Fin 5000) (q : Fin 64) :
    addf (matmul (F := Ideal) dot_S5000x64_S64x64_S5000x64_1_0_0_1_n_n none (truncf .bf16 a bitsLt_bf16_f32)
          (truncf .bf16 w bitsLt_bf16_f32) (constant (F := Ideal) S5000x64 .f32 0x00000000#32))
        (broadcastTo S5000x64 b broadcasts_S1x64_S5000x64) (ix2 p q)
      = Cert.Spec.lin (A := 5000) a w b p q := by
  rw [addf_apply, mm_apply, rowBroadcast_apply]
  rfl

/-- The layer before its normalisation, at `(p, q)`. -/
theorem layer_apply (a b : FVec Ideal S5000x64 .f32) (wl wr : FVec Ideal S64x64 .f32) (bl br : FVec Ideal S1x64 .f32)
    (p : Fin 5000) (q : Fin 64) :
    addf (addf (addf
        (matmul (F := Ideal) dot_S5000x64_S64x64_S5000x64_1_0_0_1_n_n none (truncf .bf16 a bitsLt_bf16_f32)
          (truncf .bf16 wl bitsLt_bf16_f32) (constant (F := Ideal) S5000x64 .f32 0x00000000#32))
        (broadcastTo S5000x64 bl broadcasts_S1x64_S5000x64))
        (matmul (F := Ideal) dot_S5000x64_S64x64_S5000x64_1_0_0_1_n_n none (truncf .bf16 b bitsLt_bf16_f32)
          (truncf .bf16 wr bitsLt_bf16_f32) (constant (F := Ideal) S5000x64 .f32 0x00000000#32)))
        (broadcastTo S5000x64 br broadcasts_S1x64_S5000x64) (ix2 p q)
      = Cert.Spec.sagePre (A := 5000) a b wl wr bl br p q := by
  rw [addf_apply, addf_apply, addf_apply, mm_apply, mm_apply, rowBroadcast_apply, rowBroadcast_apply]
  rfl

/-- A row divided by its Euclidean length kept above the literal, at `(p, q)`. -/
theorem normalise_apply (v : FVec Ideal S5000x64 .f32) (p : Fin 5000) (q : Fin 64) :
    divf v (broadcastTo S5000x64
        (maximumf (sqrt (shapeCast S5000x1
            (multiReduction (F := Ideal) .add [1] S5000 (mulf v v) 0x00000000#32 reduces_S5000x64_S5000 (.inl rfl) rfl)
            shapeCasts_S5000_S5000x1))
          (broadcast S5000x1 (Scalar.ofBits (F := Ideal) .f32 0x2B8CBCCC#32)))
        broadcasts_S5000x1_S5000x64) (ix2 p q)
      = Ideal.div (v (ix2 p q))
          (max (Ideal.sqrt (∑ j : Fin 64, v (ix2 p j) * v (ix2 p j))) (Ideal.ofBits .f32 0x2B8CBCCC#32)) := by
  rw [divf_apply, Cert.Lib.Rowwise.columnBroadcast_apply _ _ (by decide) p q, maximumf_apply]
  refine congrArg (Ideal.div (v (ix2 p q))) (congrArg₂ max ?_ rfl)
  show Ideal.sqrt (shapeCast S5000x1 _ shapeCasts_S5000_S5000x1 (ix2 p 0)) = _
  rw [Cert.Lib.Rowwise.column_apply _ _ p 0]
  exact congrArg Ideal.sqrt
    (Cert.Lib.Rowwise.laneSum_apply (A := 5000) (B := 64) (mulf v v) 0x00000000#32 reduces_S5000x64_S5000 (.inl rfl) rfl p)

theorem pay0_eq (x0 x1 : Vec Ideal S5000x64 .f32) (x2 x3 : Vec Ideal S64x64 .f32) (x4 x5 : Vec Ideal S1x64 .f32) :
    k0_pay1 (F := Ideal) x0 x1 x2 x3 x4 x5 = Cert.Spec.sageRows (A := 5000) x0 x1 x2 x3 x4 x5 := by
  funext y
  obtain ⟨p, q, rfl⟩ : ∃ (p : Fin 5000) (q : Fin 64), y = ix2 p q := ⟨y 0, y 1, eq_ix2 y⟩
  rw [Cert.Spec.sageRows_ix2]
  unfold k0_pay1
  simp only [shapeCast_self]
  refine (normalise_apply _ p q).trans ?_
  simp only [layer_apply]

theorem pay1_eq (x0 x1 : Vec Ideal S5000x64 .f32) (x2 x3 : Vec Ideal S64x64 .f32) (x4 x5 : Vec Ideal S1x64 .f32) :
    k1_pay1 (F := Ideal) x0 x1 x2 x3 x4 x5 = Cert.Spec.sageRows (A := 5000) x0 x1 x2 x3 x4 x5 := by
  funext y
  obtain ⟨p, q, rfl⟩ : ∃ (p : Fin 5000) (q : Fin 64), y = ix2 p q := ⟨y 0, y 1, eq_ix2 y⟩
  rw [Cert.Spec.sageRows_ix2]
  unfold k1_pay1
  simp only [shapeCast_self]
  refine (normalise_apply _ p q).trans ?_
  simp only [layer_apply]

theorem pay2_eq (x0 : Vec Ideal S5000x64 .f32) (x1 : Vec Ideal S64x64 .f32) (x2 : Vec Ideal S1x64 .f32)
    (x3 : Vec Ideal S64x64 .f32) (x4 : Vec Ideal S1x64 .f32) :
    k2_pay1 (F := Ideal) x0 x1 x2 x3 x4 = Cert.Spec.postRows (A := 5000) x0 x1 x2 x3 x4 := by
  funext y
  obtain ⟨p, q, rfl⟩ : ∃ (p : Fin 5000) (q : Fin 64), y = ix2 p q := ⟨y 0, y 1, eq_ix2 y⟩
  rw [Cert.Spec.postRows_ix2]
  unfold k2_pay1
  simp only [shapeCast_self]
  rw [addf_apply, mm_apply, rowBroadcast_apply]
  refine congrArg (· + x4 (ix2 0 q)) (Finset.sum_congr rfl fun k _ => ?_)
  exact congrArg (· * x3 (ix2 k q)) (lin_apply x0 x1 x2 p k)

end Cert.Pay

end
-- ==== Proof.Blocks.lean ====
/-
  From the twenty row blocks of each region to its whole output array.

  The program has three regions, each over twenty points `t = 0, …, 19`. At point `t` a region reads rows
  `5000·t, …, 5000·t + 4999` of each of its row-indexed `[100000, 64]` operands, the whole of each `[64, 64]` matrix and
  `[1, 64]` bias, and writes rows `5000·t, …, 5000·t + 4999` of its `[100000, 64]` result. The regions' functions
  (`Cert.Spec.sageRows`, `Cert.Spec.postRows`) send row `r` of their row-indexed operands to row `r` of their result, so
  the function of the blocks at `t` is block `t` of the function of the whole arrays (`flushedK_eq`); row `i` lies in block
  `i / 5000`, so the twenty blocks fill the result (`coveredK`), which is therefore that function of the whole arrays as the
  region finds them (`finalK`). Everything is stated at any contents `V` of the arrays at the region's entry, and for a
  payload that is the row-wise function on a block (`hpay`).

  Per region: `idx_factsK` — the index maps over the grid (a row-indexed window's block index at `t` is `(t, 0)`, a whole-array
  window's is `(0, 0)`), decided; `embK_W` — element `(r, k)` of block `t` sits in the array at `(5000·t + r, k)`; `blkK_W` — the
  block of a whole-array window is its array.
-/
import proofs.«156580_j33887291966072_1_alg».proof.Proof.Gen.KernelIdeal.Frame
import proofs.«156580_j33887291966072_1_alg».proof.Proof.Spec
import Idealize.ShloMosaic.Lib.Pipeline.Value
import Idealize.ShloMosaic.Lib.ValueIdx

noncomputable section

namespace Cert.Blocks

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-! ## Region 0: the first layer, over `main_arg0`, `main_v21` (rows) and `main_v22` … `main_v25` (whole), into `main_v26` -/

theorem idx_facts0 : ∀ t : Fin cfg0.N, t.val < 20
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem idx_onto0 : ∀ q : Fin 20, ∃ t : Fin cfg0.N, win0_6.index t = ![q.val, 0] :=
  (by decide +kernel : ∀ q : Fin 20, ∃ t : Fin grid0.N, win0_6.index t = ![q.val, 0])

example : Pipeline.arrRef spec0 0 = main_arg0 := rfl
example : Pipeline.arrRef spec0 1 = main_v21 := rfl
example : Pipeline.arrRef spec0 2 = main_v22 := rfl
example : Pipeline.arrRef spec0 3 = main_v23 := rfl
example : Pipeline.arrRef spec0 4 = main_v24 := rfl
example : Pipeline.arrRef spec0 5 = main_v25 := rfl
example : Pipeline.arrRef spec0 6 = main_v26 := rfl

theorem emb0_0 (t : Fin cfg0.N) (r : Fin 5000) (k : Fin 64) (h : 5000 * t.val + r.val < 100000) :
    ((cfg0.win 0).blk t).view.emb (ix2 r k) = ix2 (⟨5000 * t.val + r.val, h⟩ : Fin 100000) k := by
  obtain ⟨ht, e00, e01, -⟩ := idx_facts0 t
  funext a; apply Fin.ext
  match a with
  | ⟨0, _⟩ => show win0_0.index t (0 : Fin 2) * 5000 + 1 * r.val = 5000 * t.val + r.val; omega
  | ⟨1, _⟩ => show win0_0.index t (1 : Fin 2) * 64 + 1 * k.val = k.val; omega

theorem emb0_1 (t : Fin cfg0.N) (r : Fin 5000) (k : Fin 64) (h : 5000 * t.val + r.val < 100000) :
    ((cfg0.win 1).blk t).view.emb (ix2 r k) = ix2 (⟨5000 * t.val + r.val, h⟩ : Fin 100000) k := by
  obtain ⟨ht, -, -, e10, e11, -⟩ := idx_facts0 t
  funext a; apply Fin.ext
  match a with
  | ⟨0, _⟩ => show win0_1.index t (0 : Fin 2) * 5000 + 1 * r.val = 5000 * t.val + r.val; omega
  | ⟨1, _⟩ => show win0_1.index t (1 : Fin 2) * 64 + 1 * k.val = k.val; omega

theorem emb0_6 (t : Fin cfg0.N) (r : Fin 5000) (k : Fin 64) (h : 5000 * t.val + r.val < 100000) :
    ((cfg0.win 6).blk t).view.emb (ix2 r k) = ix2 (⟨5000 * t.val + r.val, h⟩ : Fin 100000) k := by
  obtain ⟨ht, -, -, -, -, -, -, -, -, -, -, -, -, e60, e61⟩ := idx_facts0 t
  funext a; apply Fin.ext
  match a with
  | ⟨0, _⟩ => show win0_6.index t (0 : Fin 2) * 5000 + 1 * r.val = 5000 * t.val + r.val; omega
  | ⟨1, _⟩ => show win0_6.index t (1 : Fin 2) * 64 + 1 * k.val = k.val; omega

/-- The block of a window whose block is its whole array is that array. -/
theorem blk0_2 (c : Dev nD) (t : Fin cfg0.N) : iblk0 V c 2 t = V c main_v22 := by
  obtain ⟨ht, -, -, -, -, e20, e21, -⟩ := idx_facts0 t
  funext y
  show V c main_v22 (((cfg0.win 2).blk t).view.emb y) = V c main_v22 y
  congr 1
  funext a; apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

theorem blk0_3 (c : Dev nD) (t : Fin cfg0.N) : iblk0 V c 3 t = V c main_v23 := by
  obtain ⟨ht, -, -, -, -, -, -, e30, e31, -⟩ := idx_facts0 t
  funext y
  show V c main_v23 (((cfg0.win 3).blk t).view.emb y) = V c main_v23 y
  congr 1
  funext a; apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

theorem blk0_4 (c : Dev nD) (t : Fin cfg0.N) : iblk0 V c 4 t = V c main_v24 := by
  obtain ⟨ht, -, -, -, -, -, -, -, -, e40, e41, -⟩ := idx_facts0 t
  funext y
  show V c main_v24 (((cfg0.win 4).blk t).view.emb y) = V c main_v24 y
  congr 1
  funext a; apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

theorem blk0_5 (c : Dev nD) (t : Fin cfg0.N) : iblk0 V c 5 t = V c main_v25 := by
  obtain ⟨ht, -, -, -, -, -, -, -, -, -, -, e50, e51, -⟩ := idx_facts0 t
  funext y
  show V c main_v25 (((cfg0.win 5).blk t).view.emb y) = V c main_v25 y
  congr 1
  funext a; apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- What point `t` writes back is block `t` of the layer of the whole arrays as the region finds them. -/
theorem flushed0_eq
    (hpay : ∀ (x0 x1 : Vec Ideal S5000x64 .f32) (x2 x3 : Vec Ideal S64x64 .f32) (x4 x5 : Vec Ideal S1x64 .f32),
      k0_pay1 (F := Ideal) x0 x1 x2 x3 x4 x5 = Cert.Spec.sageRows (A := 5000) x0 x1 x2 x3 x4 x5)
    (c : Dev nD) (t : Fin cfg0.N) :
    (dat0 (F := Ideal) V c).flushed 6 t = ((cfg0.win 6).blk t).view.read (Elt Ideal)
      (Cert.Spec.sageRows (A := 100000) (V c main_arg0) (V c main_v21) (V c main_v22) (V c main_v23) (V c main_v24) (V c main_v25)) := by
  show (cfg0.win 6).cut (grid0.coords t) ((dat0 V c).after 6 t) = _
  rw [after0_6]
  unfold out0_6
  rw [View.canon_unit_zero hz]
  simp only [View.ld_unit_zero (S := S5000x64) hz, View.ld_unit_zero (S := S64x64) hz, View.ld_unit_zero (S := S1x64) hz]
  rw [hpay, blk0_2 V c t, blk0_3 V c t, blk0_4 V c t, blk0_5 V c t]
  obtain ⟨ht, -⟩ := idx_facts0 t
  funext y
  obtain ⟨r, q, rfl⟩ : ∃ (r : Fin 5000) (q : Fin 64), y = ix2 r q := ⟨y 0, y 1, eq_ix2 y⟩
  have hr : 5000 * t.val + r.val < 100000 := by have := r.isLt; omega
  show Cert.Spec.sageRows (A := 5000) (iblk0 V c 0 t) (iblk0 V c 1 t) (V c main_v22) (V c main_v23) (V c main_v24) (V c main_v25) (ix2 r q)
    = Cert.Spec.sageRows (A := 100000) (V c main_arg0) (V c main_v21) (V c main_v22) (V c main_v23) (V c main_v24) (V c main_v25)
        (((cfg0.win 6).blk t).view.emb (ix2 r q))
  rw [emb0_6 t r q hr]
  refine Cert.Spec.sageRows_congr _ _ _ _ _ _ _ _ r ⟨5000 * t.val + r.val, hr⟩ (fun k => ?_) (fun k => ?_) q
  · show V c main_arg0 (((cfg0.win 0).blk t).view.emb (ix2 r k)) = _
    rw [emb0_0 t r k hr]
  · show V c main_v21 (((cfg0.win 1).blk t).view.emb (ix2 r k)) = _
    rw [emb0_1 t r k hr]

/-- An index of the array is in point `t`'s block iff each coordinate is in the block's range on its axis. -/
theorem mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v26).slice (win0_6.rect t)).set ↔ _
  rw [View.set_slice_whole, Rect.mem_set_unit]
  exact Iff.rfl

/-- Row `i` lies in block `i / 5000`: the twenty blocks of 5000 rows fill the array. -/
theorem covered0 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := idx_onto0 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- The region's output array after its twenty points is the layer of the whole arrays as the region finds them. -/
theorem final0
    (hpay : ∀ (x0 x1 : Vec Ideal S5000x64 .f32) (x2 x3 : Vec Ideal S64x64 .f32) (x4 x5 : Vec Ideal S1x64 .f32),
      k0_pay1 (F := Ideal) x0 x1 x2 x3 x4 x5 = Cert.Spec.sageRows (A := 5000) x0 x1 x2 x3 x4 x5)
    (c : Dev nD) :
    (dat0 (F := Ideal) V c).arrAt 6 cfg0.N = Cert.Spec.sageRows (A := 100000) (V c main_arg0) (V c main_v21) (V c main_v22) (V c main_v23) (V c main_v24) (V c main_v25) :=
  (dat0 (F := Ideal) V c).arrAt_eq_of_cover 6 _ (fun t _ => flushed0_eq V hpay c t) covered0

/-! ## Region 1: the second layer, over `main_v27`, `main_v39` (rows) and `main_v40` … `main_v43` (whole), into `main_v44` -/

theorem idx_facts1 : ∀ t : Fin cfg1.N, t.val < 20
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem idx_onto1 : ∀ q : Fin 20, ∃ t : Fin cfg1.N, win1_6.index t = ![q.val, 0] :=
  (by decide +kernel : ∀ q : Fin 20, ∃ t : Fin grid1.N, win1_6.index t = ![q.val, 0])

example : Pipeline.arrRef spec1 0 = main_v27 := rfl
example : Pipeline.arrRef spec1 1 = main_v39 := rfl
example : Pipeline.arrRef spec1 2 = main_v40 := rfl
example : Pipeline.arrRef spec1 3 = main_v41 := rfl
example : Pipeline.arrRef spec1 4 = main_v42 := rfl
example : Pipeline.arrRef spec1 5 = main_v43 := rfl
example : Pipeline.arrRef spec1 6 = main_v44 := rfl

theorem emb1_0 (t : Fin cfg1.N) (r : Fin 5000) (k : Fin 64) (h : 5000 * t.val + r.val < 100000) :
    ((cfg1.win 0).blk t).view.emb (ix2 r k) = ix2 (⟨5000 * t.val + r.val, h⟩ : Fin 100000) k := by
  obtain ⟨ht, e00, e01, -⟩ := idx_facts1 t
  funext a; apply Fin.ext
  match a with
  | ⟨0, _⟩ => show win1_0.index t (0 : Fin 2) * 5000 + 1 * r.val = 5000 * t.val + r.val; omega
  | ⟨1, _⟩ => show win1_0.index t (1 : Fin 2) * 64 + 1 * k.val = k.val; omega

theorem emb1_1 (t : Fin cfg1.N) (r : Fin 5000) (k : Fin 64) (h : 5000 * t.val + r.val < 100000) :
    ((cfg1.win 1).blk t).view.emb (ix2 r k) = ix2 (⟨5000 * t.val + r.val, h⟩ : Fin 100000) k := by
  obtain ⟨ht, -, -, e10, e11, -⟩ := idx_facts1 t
  funext a; apply Fin.ext
  match a with
  | ⟨0, _⟩ => show win1_1.index t (0 : Fin 2) * 5000 + 1 * r.val = 5000 * t.val + r.val; omega
  | ⟨1, _⟩ => show win1_1.index t (1 : Fin 2) * 64 + 1 * k.val = k.val; omega

theorem emb1_6 (t : Fin cfg1.N) (r : Fin 5000) (k : Fin 64) (h : 5000 * t.val + r.val < 100000) :
    ((cfg1.win 6).blk t).view.emb (ix2 r k) = ix2 (⟨5000 * t.val + r.val, h⟩ : Fin 100000) k := by
  obtain ⟨ht, -, -, -, -, -, -, -, -, -, -, -, -, e60, e61⟩ := idx_facts1 t
  funext a; apply Fin.ext
  match a with
  | ⟨0, _⟩ => show win1_6.index t (0 : Fin 2) * 5000 + 1 * r.val = 5000 * t.val + r.val; omega
  | ⟨1, _⟩ => show win1_6.index t (1 : Fin 2) * 64 + 1 * k.val = k.val; omega

/-- The block of a window whose block is its whole array is that array. -/
theorem blk1_2 (c : Dev nD) (t : Fin cfg1.N) : iblk1 V c 2 t = V c main_v40 := by
  obtain ⟨ht, -, -, -, -, e20, e21, -⟩ := idx_facts1 t
  funext y
  show V c main_v40 (((cfg1.win 2).blk t).view.emb y) = V c main_v40 y
  congr 1
  funext a; apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

theorem blk1_3 (c : Dev nD) (t : Fin cfg1.N) : iblk1 V c 3 t = V c main_v41 := by
  obtain ⟨ht, -, -, -, -, -, -, e30, e31, -⟩ := idx_facts1 t
  funext y
  show V c main_v41 (((cfg1.win 3).blk t).view.emb y) = V c main_v41 y
  congr 1
  funext a; apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

theorem blk1_4 (c : Dev nD) (t : Fin cfg1.N) : iblk1 V c 4 t = V c main_v42 := by
  obtain ⟨ht, -, -, -, -, -, -, -, -, e40, e41, -⟩ := idx_facts1 t
  funext y
  show V c main_v42 (((cfg1.win 4).blk t).view.emb y) = V c main_v42 y
  congr 1
  funext a; apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

theorem blk1_5 (c : Dev nD) (t : Fin cfg1.N) : iblk1 V c 5 t = V c main_v43 := by
  obtain ⟨ht, -, -, -, -, -, -, -, -, -, -, e50, e51, -⟩ := idx_facts1 t
  funext y
  show V c main_v43 (((cfg1.win 5).blk t).view.emb y) = V c main_v43 y
  congr 1
  funext a; apply Fin.ext
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- What point `t` writes back is block `t` of the layer of the whole arrays as the region finds them. -/
theorem flushed1_eq
    (hpay : ∀ (x0 x1 : Vec Ideal S5000x64 .f32) (x2 x3 : Vec Ideal S64x64 .f32) (x4 x5 : Vec Ideal S1x64 .f32),
      k1_pay1 (F := Ideal) x0 x1 x2 x3 x4 x5 = Cert.Spec.sageRows (A := 5000) x0 x1 x2 x3 x4 x5)
    (c : Dev nD) (t : Fin cfg1.N) :
    (dat1 (F := Ideal) V c).flushed 6 t = ((cfg1.win 6).blk t).view.read (Elt Ideal)
      (Cert.Spec.sageRows (A := 100000) (V c main_v27) (V c main_v39) (V c main_v40) (V c main_v41) (V c main_v42) (V c main_v43)) := by
  show (cfg1.win 6).cut (grid1.coords t) ((dat1 V c).after 6 t) = _
  rw [after1_6]
  unfold out1_6
  rw [View.canon_unit_zero hz]
  simp only [View.ld_unit_zero (S := S5000x64) hz, View.ld_unit_zero (S := S64x64) hz, View.ld_unit_zero (S := S1x64) hz]
  rw [hpay, blk1_2 V c t, blk1_3 V c t, blk1_4 V c t, blk1_5 V c t]
  obtain ⟨ht, -⟩ := idx_facts1 t
  funext y
  obtain ⟨r, q, rfl⟩ : ∃ (r : Fin 5000) (q : Fin 64), y = ix2 r q := ⟨y 0, y 1, eq_ix2 y⟩
  have hr : 5000 * t.val + r.val < 100000 := by have := r.isLt; omega
  show Cert.Spec.sageRows (A := 5000) (iblk1 V c 0 t) (iblk1 V c 1 t) (V c main_v40) (V c main_v41) (V c main_v42) (V c main_v43) (ix2 r q)
    = Cert.Spec.sageRows (A := 100000) (V c main_v27) (V c main_v39) (V c main_v40) (V c main_v41) (V c main_v42) (V c main_v43)
        (((cfg1.win 6).blk t).view.emb (ix2 r q))
  rw [emb1_6 t r q hr]
  refine Cert.Spec.sageRows_congr _ _ _ _ _ _ _ _ r ⟨5000 * t.val + r.val, hr⟩ (fun k => ?_) (fun k => ?_) q
  · show V c main_v27 (((cfg1.win 0).blk t).view.emb (ix2 r k)) = _
    rw [emb1_0 t r k hr]
  · show V c main_v39 (((cfg1.win 1).blk t).view.emb (ix2 r k)) = _
    rw [emb1_1 t r k hr]

/-- An index of the array is in point `t`'s block iff each coordinate is in the block's range on its axis. -/
theorem mem_blk1 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v44).slice (win1_6.rect t)).set ↔ _
  rw [View.set_slice_whole, Rect.mem_set_unit]
  exact Iff.rfl

/-- Row `i` lies in block `i / 5000`: the twenty blocks of 5000 rows fill the array. -/
theorem covered1 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := idx_onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The region's output array after its twenty points is the layer of the whole arrays as the region finds them. -/
theorem final1
    (hpay : ∀ (x0 x1 : Vec Ideal S5000x64 .f32) (x2 x3 : Vec Ideal S64x64 .f32) (x4 x5 : Vec Ideal S1x64 .f32),
      k1_pay1 (F := Ideal) x0 x1 x2 x3 x4 x5 = Cert.Spec.sageRows (A := 5000) x0 x1 x2 x3 x4 x5)
    (c : Dev nD) :
    (dat1 (F := Ideal) V c).arrAt 6 cfg1.N = Cert.Spec.sageRows (A := 100000) (V c main_v27) (V c main_v39) (V c main_v40) (V c main_v41) (V c main_v42) (V c main_v43) :=
  (dat1 (F := Ideal) V c).arrAt_eq_of_cover 6 _ (fun t _ => flushed1_eq V hpay c t) covered1

/-! ## Region 2: the two affine maps, over `main_v45` (rows) and `main_v46`, `main_v48`, `main_v47`, `main_v49` (whole), into `main_v50` -/

theorem idx_facts2 : ∀ t : Fin cfg2.N, t.val < 20
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem idx_onto2 : ∀ q : Fin 20, ∃ t : Fin cfg2.N, win2_5.index t = ![q.val, 0] :=
  (by decide +kernel : ∀ q : Fin 20, ∃ t : Fin grid2.N, win2_5.index t = ![q.val, 0])

example : Pipeline.arrRef spec2 0 = main_v45 := rfl
example : Pipeline.arrRef spec2 1 = main_v46 := rfl
example : Pipeline.arrRef spec2 2 = main_v48 := rfl
example : Pipeline.arrRef spec2 3 = main_v47 := rfl
example : Pipeline.arrRef spec2 4 = main_v49 := rfl
example : Pipeline.arrRef spec2 5 = main_v50 := rfl

theorem emb2_0 (t : Fin cfg2.N) (r : Fin 5000) (k : Fin 64) (h : 5000 * t.val + r.val < 100000) :
    ((cfg2.win 0).blk t).view.emb (ix2 r k) = ix2 (⟨5000 * t.val + r.val, h⟩ : Fin 100000) k := by
  obtain ⟨ht, e00, e01, -⟩ := idx_facts2 t
  funext a; apply Fin.ext
  match a with
  | ⟨0, _⟩ => show win2_0.index t (0 : Fin 2) * 5000 + 1 * r.val = 5000 * t.val + r.val; omega
  | ⟨1, _⟩ => show win2_0.index t (1 : Fin 2) * 64 + 1 * k.val = k.val; omega

theorem emb2_5 (t : Fin cfg2.N) (r : Fin 5000) (k : Fin 64) (h : 5000 * t.val + r.val < 100000) :
    ((cfg2.win 5).blk t).view.emb (ix2 r k) = ix2 (⟨5000 * t.val + r.val, h⟩ : Fin 100000) k := by
  obtain ⟨ht, -, -, -, -, -, -, -, -, -, -, e50, e51⟩ := idx_facts2 t
  funext a; apply Fin.ext
  match a with
  | ⟨0, _⟩ => show win2_5.index t (0 : Fin 2) * 5000 + 1 * r.val = 5000 * t.val + r.val; omega
  | ⟨1, _⟩ => show win2_5.index t (1 : Fin 2) * 64 + 1 * k.val = k.val; omega

/-- The block of a window whose block is its whole array is that array. -/
theorem blk2_1 (c : Dev nD) (t : Fin cfg2.N) : iblk2 V c 1 t = V c main_v46 := by
  obtain ⟨ht, -, -, e0, e1, -⟩ := idx_facts2 t
  funext y
  show V c main_v46 (((cfg2.win 1).blk t).view.emb y) = V c main_v46 y
  congr 1
  funext a; apply Fin.ext
  match a with
  | ⟨0, _⟩ => show win2_1.index t (0 : Fin 2) * 64 + 1 * (y 0).val = (y 0).val; omega
  | ⟨1, _⟩ => show win2_1.index t (1 : Fin 2) * 64 + 1 * (y 1).val = (y 1).val; omega

theorem blk2_2 (c : Dev nD) (t : Fin cfg2.N) : iblk2 V c 2 t = V c main_v48 := by
  obtain ⟨ht, -, -, -, -, e0, e1, -⟩ := idx_facts2 t
  funext y
  show V c main_v48 (((cfg2.win 2).blk t).view.emb y) = V c main_v48 y
  congr 1
  funext a; apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

theorem blk2_3 (c : Dev nD) (t : Fin cfg2.N) : iblk2 V c 3 t = V c main_v47 := by
  obtain ⟨ht, -, -, -, -, -, -, e0, e1, -⟩ := idx_facts2 t
  funext y
  show V c main_v47 (((cfg2.win 3).blk t).view.emb y) = V c main_v47 y
  congr 1
  funext a; apply Fin.ext
  match a with
  | ⟨0, _⟩ => show win2_3.index t (0 : Fin 2) * 64 + 1 * (y 0).val = (y 0).val; omega
  | ⟨1, _⟩ => show win2_3.index t (1 : Fin 2) * 64 + 1 * (y 1).val = (y 1).val; omega

theorem blk2_4 (c : Dev nD) (t : Fin cfg2.N) : iblk2 V c 4 t = V c main_v49 := by
  obtain ⟨ht, -, -, -, -, -, -, -, -, e0, e1, -⟩ := idx_facts2 t
  funext y
  show V c main_v49 (((cfg2.win 4).blk t).view.emb y) = V c main_v49 y
  congr 1
  funext a; apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- What point `t` writes back is block `t` of the two affine maps of the whole arrays as the region finds them. -/
theorem flushed2_eq
    (hpay : ∀ (x0 : Vec Ideal S5000x64 .f32) (x1 : Vec Ideal S64x64 .f32) (x2 : Vec Ideal S1x64 .f32) (x3 : Vec Ideal S64x64 .f32)
      (x4 : Vec Ideal S1x64 .f32), k2_pay1 (F := Ideal) x0 x1 x2 x3 x4 = Cert.Spec.postRows (A := 5000) x0 x1 x2 x3 x4)
    (c : Dev nD) (t : Fin cfg2.N) :
    (dat2 (F := Ideal) V c).flushed 5 t = ((cfg2.win 5).blk t).view.read (Elt Ideal)
      (Cert.Spec.postRows (A := 100000) (V c main_v45) (V c main_v46) (V c main_v48) (V c main_v47) (V c main_v49)) := by
  show (cfg2.win 5).cut (grid2.coords t) ((dat2 V c).after 5 t) = _
  rw [after2_5]
  unfold out2_5
  rw [View.canon_unit_zero hz]
  simp only [View.ld_unit_zero (S := S5000x64) hz, View.ld_unit_zero (S := S64x64) hz, View.ld_unit_zero (S := S1x64) hz]
  rw [hpay, blk2_1 V c t, blk2_2 V c t, blk2_3 V c t, blk2_4 V c t]
  obtain ⟨ht, -⟩ := idx_facts2 t
  funext y
  obtain ⟨r, q, rfl⟩ : ∃ (r : Fin 5000) (q : Fin 64), y = ix2 r q := ⟨y 0, y 1, eq_ix2 y⟩
  have hr : 5000 * t.val + r.val < 100000 := by have := r.isLt; omega
  show Cert.Spec.postRows (A := 5000) (iblk2 V c 0 t) (V c main_v46) (V c main_v48) (V c main_v47) (V c main_v49) (ix2 r q)
    = Cert.Spec.postRows (A := 100000) (V c main_v45) (V c main_v46) (V c main_v48) (V c main_v47) (V c main_v49)
        (((cfg2.win 5).blk t).view.emb (ix2 r q))
  rw [emb2_5 t r q hr]
  refine Cert.Spec.postRows_congr _ _ _ _ _ _ r ⟨5000 * t.val + r.val, hr⟩ (fun k => ?_) q
  show V c main_v45 (((cfg2.win 0).blk t).view.emb (ix2 r k)) = _
  rw [emb2_0 t r k hr]

/-- An index of the array is in point `t`'s block iff each coordinate is in the block's range on its axis. -/
theorem mem_blk2 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v50).slice (win2_5.rect t)).set ↔ _
  rw [View.set_slice_whole, Rect.mem_set_unit]
  exact Iff.rfl

/-- Row `i` lies in block `i / 5000`: the twenty blocks of 5000 rows fill the array. -/
theorem covered2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := idx_onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The region's output array after its twenty points is the two affine maps of the whole arrays as the region finds them. -/
theorem final2
    (hpay : ∀ (x0 : Vec Ideal S5000x64 .f32) (x1 : Vec Ideal S64x64 .f32) (x2 : Vec Ideal S1x64 .f32) (x3 : Vec Ideal S64x64 .f32)
      (x4 : Vec Ideal S1x64 .f32), k2_pay1 (F := Ideal) x0 x1 x2 x3 x4 = Cert.Spec.postRows (A := 5000) x0 x1 x2 x3 x4)
    (c : Dev nD) :
    (dat2 (F := Ideal) V c).arrAt 5 cfg2.N = Cert.Spec.postRows (A := 100000) (V c main_v45) (V c main_v46) (V c main_v48) (V c main_v47) (V c main_v49) :=
  (dat2 (F := Ideal) V c).arrAt_eq_of_cover 5 _ (fun t _ => flushed2_eq V hpay c t) covered2

end Cert.Blocks

end
-- ==== Proof.Shared.lean ====
/-
  The host-side functions both programs apply around their dense stages, each as ONE named function of its operands, so
  that the two programs' terms are compared by name and never opened:

    * `srcRow e`, `dstRow e`: rows 0 and 1 of the edge list `e : [2, E]`, as vectors of length `E`;
    * `wrap s`: a negative index moved up by the number of nodes (the indexing convention for `x[s]`);
    * `cntOf d`: for each node the number of edges pointing at it (a scatter-add of ones along `d`), kept above one;
    * `propOf h s d cnt`: the rows `h[s]` gathered along the edges, added up at their destinations `d`, divided by `cnt`:
      each node's average over its in-neighbours; `propH h e` is that at the edge list's own rows and counts;
    * `reluH h = max h 0`; `trH w` the transposed matrix; `rowH b` a length-64 vector as a `[1, 64]` row.

  `netValue` composes them with the row-wise functions of `Spec.lean` into the whole network.
-/
import proofs.«156580_j33887291966072_1_alg».proof.KernelIdeal
import proofs.«156580_j33887291966072_1_alg».proof.Proof.Spec

noncomputable section

namespace Cert.Shared

open Cert.KernelIdeal Idealize.ShloMosaic

variable {F : FTy → Type} [FloatOps F]
variable [Cert.KernelIdeal.Facts]
open Cert.KernelIdeal.Facts₀ Cert.KernelIdeal.Facts

/-- Row 0 of the edge list: the source node of each edge. -/
def srcRow (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- Row 1 of the edge list: the destination node of each edge. -/
def dstRow (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- A negative index counts from the end: `s < 0` becomes `s + 100000`. -/
def wrap (s : (⟨S1600000, .i32⟩ : BufTy).Contents (Elt F)) : (⟨S1600000, .i32⟩ : BufTy).Contents (Elt F) :=
  select (cmpi .slt s (broadcastInDim S1600000 ![] bcast_S_S1600000 (constantI S_ 32 0#32)))
    (addi s (broadcastInDim S1600000 ![] bcast_S_S1600000 (constantI S_ 32 100000#32))) s

/-- Each node's in-degree, kept above one. -/
def cntOf (d : (⟨S1600000, .i32⟩ : BufTy).Contents (Elt F)) : (⟨S100000x1, .f32⟩ : BufTy).Contents (Elt F) :=
  maximumf
    (Host.scatterAdd scatter_S100000x1_S1600000x1_S1600000x1_1_0_0_1
      (broadcastInDim S100000x1 ![] bcast_S_S100000x1 (constant S_ .f32 0x00000000#32))
      (broadcastInDim S1600000x1 ![0] bcast_S1600000_S1600000x1_0 d)
      (broadcastInDim S1600000x1 ![] bcast_S_S1600000x1 (constant S_ .f32 0x3F800000#32)))
    (broadcastInDim S100000x1 ![] bcast_S_S100000x1 (constant S_ .f32 0x3F800000#32))

/-- Each node's average of `h` over its in-neighbours: gather along the sources, add up at the destinations, divide by
    the count. -/
def propOf (h : (⟨S100000x64, .f32⟩ : BufTy).Contents (Elt F)) (s d : (⟨S1600000, .i32⟩ : BufTy).Contents (Elt F))
    (cnt : (⟨S100000x1, .f32⟩ : BufTy).Contents (Elt F)) : (⟨S100000x64, .f32⟩ : BufTy).Contents (Elt F) :=
  Host.divf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 d)
      (Host.gather gather_S100000x64_S1600000x1_S1600000x64_1_0_n_n_0_1_164 h
        (broadcastInDim S1600000x1 ![0] bcast_S1600000_S1600000x1_0 (wrap s))))
    (broadcastInDim S100000x64 ![0, 1] bcast_S100000x1_S100000x64_0_1 cnt)

/-- The neighbourhood average at the edge list's own rows and counts. -/
def propH (h : (⟨S100000x64, .f32⟩ : BufTy).Contents (Elt F)) (e : (⟨S2x1600000, .i32⟩ : BufTy).Contents (Elt F)) :
    (⟨S100000x64, .f32⟩ : BufTy).Contents (Elt F) :=
  propOf h (srcRow e) (dstRow e) (cntOf (dstRow e))

/-- `max h 0`. -/
def reluH (h : (⟨S100000x64, .f32⟩ : BufTy).Contents (Elt F)) : (⟨S100000x64, .f32⟩ : BufTy).Contents (Elt F) :=
  maximumf h (broadcastInDim S100000x64 ![] bcast_S_S100000x64 (constant S_ .f32 0x00000000#32))

/-- The transposed matrix. -/
def trH (w : (⟨S64x64, .f32⟩ : BufTy).Contents (Elt F)) : (⟨S64x64, .f32⟩ : BufTy).Contents (Elt F) :=
  transpose S64x64 [1, 0] w transposes_S64x64_S64x64_1_0

/-- A length-64 vector as a `[1, 64]` row. -/
def rowH (b : (⟨S64, .f32⟩ : BufTy).Contents (Elt F)) : (⟨S1x64, .f32⟩ : BufTy).Contents (Elt F) :=
  shapeCast S1x64 b shapeCasts_S64_S1x64

/-- The whole network at the extended reals: two normalised neighbourhood layers with `max · 0` after each, then two
    affine maps. -/
def netValue (x : (⟨S100000x64, .f32⟩ : BufTy).Contents (Elt Ideal)) (e : (⟨S2x1600000, .i32⟩ : BufTy).Contents (Elt Ideal))
    (w1l : (⟨S64x64, .f32⟩ : BufTy).Contents (Elt Ideal)) (b1l : (⟨S64, .f32⟩ : BufTy).Contents (Elt Ideal))
    (w1r : (⟨S64x64, .f32⟩ : BufTy).Contents (Elt Ideal)) (b1r : (⟨S64, .f32⟩ : BufTy).Contents (Elt Ideal))
    (w2l : (⟨S64x64, .f32⟩ : BufTy).Contents (Elt Ideal)) (b2l : (⟨S64, .f32⟩ : BufTy).Contents (Elt Ideal))
    (w2r : (⟨S64x64, .f32⟩ : BufTy).Contents (Elt Ideal)) (b2r : (⟨S64, .f32⟩ : BufTy).Contents (Elt Ideal))
    (wp1 : (⟨S64x64, .f32⟩ : BufTy).Contents (Elt Ideal)) (bp1 : (⟨S64, .f32⟩ : BufTy).Contents (Elt Ideal))
    (wp2 : (⟨S64x64, .f32⟩ : BufTy).Contents (Elt Ideal)) (bp2 : (⟨S64, .f32⟩ : BufTy).Contents (Elt Ideal)) :
    (⟨S100000x64, .f32⟩ : BufTy).Contents (Elt Ideal) :=
  let h1 : (⟨S100000x64, .f32⟩ : BufTy).Contents (Elt Ideal) :=
    reluH (F := Ideal) (Cert.Spec.sageRows (A := 100000) x (propH (F := Ideal) x e) (trH (F := Ideal) w1l) (trH (F := Ideal) w1r)
      (rowH (F := Ideal) b1l) (rowH (F := Ideal) b1r))
  let h2 : (⟨S100000x64, .f32⟩ : BufTy).Contents (Elt Ideal) :=
    reluH (F := Ideal) (Cert.Spec.sageRows (A := 100000) h1 (propH (F := Ideal) h1 e) (trH (F := Ideal) w2l) (trH (F := Ideal) w2r)
      (rowH (F := Ideal) b2l) (rowH (F := Ideal) b2r))
  Cert.Spec.postRows (A := 100000) h2 (trH (F := Ideal) wp1) (rowH (F := Ideal) bp1) (trH (F := Ideal) wp2) (rowH (F := Ideal) bp2)

end Cert.Shared

end
-- ==== Proof.Chain.lean ====
/-
  The kernel program's result array, read back through @main: three row-blocked regions among stretches of host
  operations. At each boundary the buffers the next stage reads are named as functions of the launch arguments:

    * after the first stretch: the edge list's rows, the in-degree counts, the first layer's neighbourhood average
      `propH x e`, the transposed matrices and the biases as rows;
    * after region 0: the first layer, `sageRows x (propH x e) …` (its blocks put together);
    * after the second and third stretches: `max · 0` of it, and ITS neighbourhood average over the same rows and counts;
    * after region 1: the second layer; then `max · 0` again, the last matrices and rows; after region 2: the two affine maps.

  A buffer no operation of a stretch writes and no region stages as an output is the same on both sides of it.
-/
import proofs.«156580_j33887291966072_1_alg».proof.Proof.Gen.KernelIdeal.Frame
import proofs.«156580_j33887291966072_1_alg».proof.Proof.Shared
import Idealize.ShloMosaic.Lib.StableHlo.Run

set_option maxRecDepth 16384

noncomputable section

namespace Cert.Chain

open Cert.KernelIdeal Cert.KernelIdeal.Gen Cert.Shared
open Idealize.ShloMosaic Idealize.ShloMosaic.TcCoe Idealize.SL.Sem Idealize.ShloMosaic.StableHlo

variable (m : (ℓ : Loc nD τ sig) → Buf (Elt Ideal) ℓ) (ρ : Dev nD → PrngReg)

/-- No operation of the named stretch writes the buffer in the goal. -/
local macro "not_written " ops:ident : term => `(List.forall_iff_forall_mem.mp (by
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## After the first stretch -/

theorem W1_arg0 (c : Dev nD) : W1 m ρ c (Proc.devRef .tc main_arg0) = m ((c : Thread nD τ).loc main_arg0) :=
  (StableHlo.after_of_forall_not_mem (b := Proc.devRef .tc main_arg0) _ _ (not_written hostOps0)).trans rfl

theorem W1_v1 (c : Dev nD) :
    (W1 m ρ c (Proc.devRef .tc main_v1) : (⟨S1600000, .i32⟩ : BufTy).Contents (Elt Ideal)) = srcRow (m ((c : Thread nD τ).loc main_arg1)) := by
  show StableHlo.after hostOps0 (W0 m ρ c) (Proc.devRef .tc main_v1) = _
  after_results_simp
  rfl

theorem W1_v3 (c : Dev nD) :
    (W1 m ρ c (Proc.devRef .tc main_v3) : (⟨S1600000, .i32⟩ : BufTy).Contents (Elt Ideal)) = dstRow (m ((c : Thread nD τ).loc main_arg1)) := by
  show StableHlo.after hostOps0 (W0 m ρ c) (Proc.devRef .tc main_v3) = _
  after_results_simp
  rfl

theorem W1_v9 (c : Dev nD) :
    (W1 m ρ c (Proc.devRef .tc main_v9) : (⟨S100000x1, .f32⟩ : BufTy).Contents (Elt Ideal))
      = cntOf (dstRow (m ((c : Thread nD τ).loc main_arg1))) := by
  show StableHlo.after hostOps0 (W0 m ρ c) (Proc.devRef .tc main_v9) = _
  after_results_simp
  rfl

theorem W1_v21 (c : Dev nD) :
    (W1 m ρ c (Proc.devRef .tc main_v21) : (⟨S100000x64, .f32⟩ : BufTy).Contents (Elt Ideal))
      = propH (m ((c : Thread nD τ).loc main_arg0)) (m ((c : Thread nD τ).loc main_arg1)) := by
  show StableHlo.after hostOps0 (W0 m ρ c) (Proc.devRef .tc main_v21) = _
  after_results_simp
  rfl

theorem W1_v22 (c : Dev nD) :
    (W1 m ρ c (Proc.devRef .tc main_v22) : (⟨S64x64, .f32⟩ : BufTy).Contents (Elt Ideal)) = trH (m ((c : Thread nD τ).loc main_arg2)) := by
  show StableHlo.after hostOps0 (W0 m ρ c) (Proc.devRef .tc main_v22) = _
  after_results_simp
  rfl

theorem W1_v23 (c : Dev nD) :
    (W1 m ρ c (Proc.devRef .tc main_v23) : (⟨S64x64, .f32⟩ : BufTy).Contents (Elt Ideal)) = trH (m ((c : Thread nD τ).loc main_arg4)) := by
  show StableHlo.after hostOps0 (W0 m ρ c) (Proc.devRef .tc main_v23) = _
  after_results_simp
  rfl

theorem W1_v24 (c : Dev nD) :
    (W1 m ρ c (Proc.devRef .tc main_v24) : (⟨S1x64, .f32⟩ : BufTy).Contents (Elt Ideal)) = rowH (m ((c : Thread nD τ).loc main_arg3)) := by
  show StableHlo.after hostOps0 (W0 m ρ c) (Proc.devRef .tc main_v24) = _
  after_results_simp
  rfl

theorem W1_v25 (c : Dev nD) :
    (W1 m ρ c (Proc.devRef .tc main_v25) : (⟨S1x64, .f32⟩ : BufTy).Contents (Elt Ideal)) = rowH (m ((c : Thread nD τ).loc main_arg5)) := by
  show StableHlo.after hostOps0 (W0 m ρ c) (Proc.devRef .tc main_v25) = _
  after_results_simp
  rfl

/-! ## The launch arguments, and the network's intermediate arrays, by name -/

abbrev A0 (c : Dev nD) : (⟨S100000x64, .f32⟩ : BufTy).Contents (Elt Ideal) := m ((c : Thread nD τ).loc main_arg0)
abbrev A1 (c : Dev nD) : (⟨S2x1600000, .i32⟩ : BufTy).Contents (Elt Ideal) := m ((c : Thread nD τ).loc main_arg1)
abbrev A2 (c : Dev nD) : (⟨S64x64, .f32⟩ : BufTy).Contents (Elt Ideal) := m ((c : Thread nD τ).loc main_arg2)
abbrev A3 (c : Dev nD) : (⟨S64, .f32⟩ : BufTy).Contents (Elt Ideal) := m ((c : Thread nD τ).loc main_arg3)
abbrev A4 (c : Dev nD) : (⟨S64x64, .f32⟩ : BufTy).Contents (Elt Ideal) := m ((c : Thread nD τ).loc main_arg4)
abbrev A5 (c : Dev nD) : (⟨S64, .f32⟩ : BufTy).Contents (Elt Ideal) := m ((c : Thread nD τ).loc main_arg5)
abbrev A6 (c : Dev nD) : (⟨S64x64, .f32⟩ : BufTy).Contents (Elt Ideal) := m ((c : Thread nD τ).loc main_arg6)
abbrev A7 (c : Dev nD) : (⟨S64, .f32⟩ : BufTy).Contents (Elt Ideal) := m ((c : Thread nD τ).loc main_arg7)
abbrev A8 (c : Dev nD) : (⟨S64x64, .f32⟩ : BufTy).Contents (Elt Ideal) := m ((c : Thread nD τ).loc main_arg8)
abbrev A9 (c : Dev nD) : (⟨S64, .f32⟩ : BufTy).Contents (Elt Ideal) := m ((c : Thread nD τ).loc main_arg9)
abbrev A10 (c : Dev nD) : (⟨S64x64, .f32⟩ : BufTy).Contents (Elt Ideal) := m ((c : Thread nD τ).loc main_arg10)
abbrev A11 (c : Dev nD) : (⟨S64, .f32⟩ : BufTy).Contents (Elt Ideal) := m ((c : Thread nD τ).loc main_arg11)
abbrev A12 (c : Dev nD) : (⟨S64x64, .f32⟩ : BufTy).Contents (Elt Ideal) := m ((c : Thread nD τ).loc main_arg12)
abbrev A13 (c : Dev nD) : (⟨S64, .f32⟩ : BufTy).Contents (Elt Ideal) := m ((c : Thread nD τ).loc main_arg13)

/-- The first layer before its `max · 0`. -/
def L1 (c : Dev nD) : (⟨S100000x64, .f32⟩ : BufTy).Contents (Elt Ideal) :=
  Cert.Spec.sageRows (A := 100000) (A0 m c) (propH (F := Ideal) (A0 m c) (A1 m c)) (trH (F := Ideal) (A2 m c)) (trH (F := Ideal) (A4 m c))
    (rowH (F := Ideal) (A3 m c)) (rowH (F := Ideal) (A5 m c))
/-- The first layer. -/
def H1 (c : Dev nD) : (⟨S100000x64, .f32⟩ : BufTy).Contents (Elt Ideal) := reluH (F := Ideal) (L1 m c)
/-- The second layer before its `max · 0`. -/
def L2 (c : Dev nD) : (⟨S100000x64, .f32⟩ : BufTy).Contents (Elt Ideal) :=
  Cert.Spec.sageRows (A := 100000) (H1 m c) (propH (F := Ideal) (H1 m c) (A1 m c)) (trH (F := Ideal) (A6 m c)) (trH (F := Ideal) (A8 m c))
    (rowH (F := Ideal) (A7 m c)) (rowH (F := Ideal) (A9 m c))
/-- The second layer. -/
def H2 (c : Dev nD) : (⟨S100000x64, .f32⟩ : BufTy).Contents (Elt Ideal) := reluH (F := Ideal) (L2 m c)

theorem netValue_eq (c : Dev nD) :
    netValue (A0 m c) (A1 m c) (A2 m c) (A3 m c) (A4 m c) (A5 m c) (A6 m c) (A7 m c) (A8 m c) (A9 m c) (A10 m c) (A11 m c) (A12 m c) (A13 m c)
      = Cert.Spec.postRows (A := 100000) (H2 m c) (trH (F := Ideal) (A10 m c)) (rowH (F := Ideal) (A11 m c)) (trH (F := Ideal) (A12 m c))
          (rowH (F := Ideal) (A13 m c)) := rfl

/-! ## A launch argument reaches every later boundary unchanged -/

/-- At region 0's exit: not written by the first stretch, not an output of region 0. -/
theorem arg_at_W2 (c : Dev nD) (b : Ref sig .tc)
    (h0 : ∀ op ∈ (hostOps0 : List (HloOp τ sig (Elt Ideal))), Proc.devRef .tc b ∉ op.writes) (hr0 : ∀ w, Pipeline.arrRef spec0 w ≠ b) :
    W2 m ρ c (Proc.devRef .tc b) = m ((c : Thread nD τ).loc b) :=
  calc W2 m ρ c (Proc.devRef .tc b)
    _ = W1 m ρ c (Proc.devRef .tc b) := W2_of_ne m ρ c b hr0
    _ = W0 m ρ c (Proc.devRef .tc b) := StableHlo.after_of_forall_not_mem (b := Proc.devRef .tc b) _ _ h0
    _ = m ((c : Thread nD τ).loc b) := rfl

/-- At region 1's exit: nor written by the second and third stretches, nor an output of region 1. -/
theorem arg_at_W5 (c : Dev nD) (b : Ref sig .tc)
    (h0 : ∀ op ∈ (hostOps0 : List (HloOp τ sig (Elt Ideal))), Proc.devRef .tc b ∉ op.writes) (hr0 : ∀ w, Pipeline.arrRef spec0 w ≠ b)
    (h1 : ∀ op ∈ (hostOps1 : List (HloOp τ sig (Elt Ideal))), Proc.devRef .tc b ∉ op.writes)
    (h11 : ∀ op ∈ (hostOps1_1 : List (HloOp τ sig (Elt Ideal))), Proc.devRef .tc b ∉ op.writes) (hr1 : ∀ w, Pipeline.arrRef spec1 w ≠ b) :
    W5 m ρ c (Proc.devRef .tc b) = m ((c : Thread nD τ).loc b) :=
  calc W5 m ρ c (Proc.devRef .tc b)
    _ = W4 m ρ c (Proc.devRef .tc b) := W5_of_ne m ρ c b hr1
    _ = W3 m ρ c (Proc.devRef .tc b) := StableHlo.after_of_forall_not_mem (b := Proc.devRef .tc b) _ _ h11
    _ = W2 m ρ c (Proc.devRef .tc b) := StableHlo.after_of_forall_not_mem (b := Proc.devRef .tc b) _ _ h1
    _ = m ((c : Thread nD τ).loc b) := arg_at_W2 m ρ c b h0 hr0

/-! ## After region 0: the first layer -/

theorem W2_v26
    (hf0 : ∀ c : Dev nD, (dat0 (F := Ideal) (V1 m ρ) c).arrAt 6 cfg0.N = Cert.Spec.sageRows (A := 100000) (V1 m ρ c main_arg0)
      (V1 m ρ c main_v21) (V1 m ρ c main_v22) (V1 m ρ c main_v23) (V1 m ρ c main_v24) (V1 m ρ c main_v25)) (c : Dev nD) :
    (W2 m ρ c (Proc.devRef .tc main_v26) : (⟨S100000x64, .f32⟩ : BufTy).Contents (Elt Ideal)) = L1 m c := by
  refine (W2_arr m ρ c 6).trans ((hf0 c).trans ?_)
  show Cert.Spec.sageRows (A := 100000) (W1 m ρ c (Proc.devRef .tc main_arg0)) (W1 m ρ c (Proc.devRef .tc main_v21))
    (W1 m ρ c (Proc.devRef .tc main_v22)) (W1 m ρ c (Proc.devRef .tc main_v23)) (W1 m ρ c (Proc.devRef .tc main_v24))
    (W1 m ρ c (Proc.devRef .tc main_v25)) = _
  rw [W1_arg0 m ρ c, W1_v21 m ρ c, W1_v22 m ρ c, W1_v23 m ρ c, W1_v24 m ρ c, W1_v25 m ρ c]
  rfl

/-! ## The second and third stretches: `max · 0`, the neighbourhood average of the first layer, the second layer's matrices -/

theorem W3_v27 (c : Dev nD) :
    (W3 m ρ c (Proc.devRef .tc main_v27) : (⟨S100000x64, .f32⟩ : BufTy).Contents (Elt Ideal))
      = reluH (F := Ideal) (W2 m ρ c (Proc.devRef .tc main_v26)) := by
  show StableHlo.after hostOps1 (W2 m ρ c) (Proc.devRef .tc main_v27) = _
  after_results
  rfl

theorem W3_v1 (c : Dev nD) :
    (W3 m ρ c (Proc.devRef .tc main_v1) : (⟨S1600000, .i32⟩ : BufTy).Contents (Elt Ideal)) = srcRow (A1 m c) :=
  (StableHlo.after_of_forall_not_mem (b := Proc.devRef .tc main_v1) _ _ (not_written hostOps1)).trans
    ((W2_of_ne m ρ c main_v1 (by decide)).trans (W1_v1 m ρ c))

theorem W3_v3 (c : Dev nD) :
    (W3 m ρ c (Proc.devRef .tc main_v3) : (⟨S1600000, .i32⟩ : BufTy).Contents (Elt Ideal)) = dstRow (A1 m c) :=
  (StableHlo.after_of_forall_not_mem (b := Proc.devRef .tc main_v3) _ _ (not_written hostOps1)).trans
    ((W2_of_ne m ρ c main_v3 (by decide)).trans (W1_v3 m ρ c))

theorem W3_v9 (c : Dev nD) :
    (W3 m ρ c (Proc.devRef .tc main_v9) : (⟨S100000x1, .f32⟩ : BufTy).Contents (Elt Ideal)) = cntOf (dstRow (A1 m c)) :=
  (StableHlo.after_of_forall_not_mem (b := Proc.devRef .tc main_v9) _ _ (not_written hostOps1)).trans
    ((W2_of_ne m ρ c main_v9 (by decide)).trans (W1_v9 m ρ c))

theorem W4_v27 (c : Dev nD) : W4 m ρ c (Proc.devRef .tc main_v27) = W3 m ρ c (Proc.devRef .tc main_v27) :=
  StableHlo.after_of_forall_not_mem (b := Proc.devRef .tc main_v27) _ _ (not_written hostOps1_1)

theorem W4_v39 (c : Dev nD) :
    (W4 m ρ c (Proc.devRef .tc main_v39) : (⟨S100000x64, .f32⟩ : BufTy).Contents (Elt Ideal))
      = propOf (F := Ideal) (W3 m ρ c (Proc.devRef .tc main_v27)) (W3 m ρ c (Proc.devRef .tc main_v1))
          (W3 m ρ c (Proc.devRef .tc main_v3)) (W3 m ρ c (Proc.devRef .tc main_v9)) := by
  show StableHlo.after hostOps1_1 (W3 m ρ c) (Proc.devRef .tc main_v39) = _
  after_results_simp
  rfl

theorem W4_v40 (c : Dev nD) :
    (W4 m ρ c (Proc.devRef .tc main_v40) : (⟨S64x64, .f32⟩ : BufTy).Contents (Elt Ideal)) = trH (F := Ideal) (A6 m c) := by
  show StableHlo.after hostOps1_1 (W3 m ρ c) (Proc.devRef .tc main_v40) = _
  after_results_simp
  rw [arg_at_W2 m ρ c main_arg6 (not_written hostOps0) (by decide)]
  rfl

theorem W4_v41 (c : Dev nD) :
    (W4 m ρ c (Proc.devRef .tc main_v41) : (⟨S64x64, .f32⟩ : BufTy).Contents (Elt Ideal)) = trH (F := Ideal) (A8 m c) := by
  show StableHlo.after hostOps1_1 (W3 m ρ c) (Proc.devRef .tc main_v41) = _
  after_results_simp
  rw [arg_at_W2 m ρ c main_arg8 (not_written hostOps0) (by decide)]
  rfl

theorem W4_v42 (c : Dev nD) :
    (W4 m ρ c (Proc.devRef .tc main_v42) : (⟨S1x64, .f32⟩ : BufTy).Contents (Elt Ideal)) = rowH (F := Ideal) (A7 m c) := by
  show StableHlo.after hostOps1_1 (W3 m ρ c) (Proc.devRef .tc main_v42) = _
  after_results_simp
  rw [arg_at_W2 m ρ c main_arg7 (not_written hostOps0) (by decide)]
  rfl

theorem W4_v43 (c : Dev nD) :
    (W4 m ρ c (Proc.devRef .tc main_v43) : (⟨S1x64, .f32⟩ : BufTy).Contents (Elt Ideal)) = rowH (F := Ideal) (A9 m c) := by
  show StableHlo.after hostOps1_1 (W3 m ρ c) (Proc.devRef .tc main_v43) = _
  after_results_simp
  rw [arg_at_W2 m ρ c main_arg9 (not_written hostOps0) (by decide)]
  rfl

/-! ## Region 1's entry contents, and after it: the second layer -/

theorem W4_v27_eq
    (hf0 : ∀ c : Dev nD, (dat0 (F := Ideal) (V1 m ρ) c).arrAt 6 cfg0.N = Cert.Spec.sageRows (A := 100000) (V1 m ρ c main_arg0)
      (V1 m ρ c main_v21) (V1 m ρ c main_v22) (V1 m ρ c main_v23) (V1 m ρ c main_v24) (V1 m ρ c main_v25)) (c : Dev nD) :
    (W4 m ρ c (Proc.devRef .tc main_v27) : (⟨S100000x64, .f32⟩ : BufTy).Contents (Elt Ideal)) = H1 m c :=
  (W4_v27 m ρ c).trans ((W3_v27 m ρ c).trans (congrArg (reluH (F := Ideal)) (W2_v26 m ρ hf0 c)))

theorem W4_v39_eq
    (hf0 : ∀ c : Dev nD, (dat0 (F := Ideal) (V1 m ρ) c).arrAt 6 cfg0.N = Cert.Spec.sageRows (A := 100000) (V1 m ρ c main_arg0)
      (V1 m ρ c main_v21) (V1 m ρ c main_v22) (V1 m ρ c main_v23) (V1 m ρ c main_v24) (V1 m ρ c main_v25)) (c : Dev nD) :
    (W4 m ρ c (Proc.devRef .tc main_v39) : (⟨S100000x64, .f32⟩ : BufTy).Contents (Elt Ideal))
      = propH (F := Ideal) (H1 m c) (A1 m c) := by
  rw [W4_v39 m ρ c, W3_v1 m ρ c, W3_v3 m ρ c, W3_v9 m ρ c, W3_v27 m ρ c, W2_v26 m ρ hf0 c]
  rfl

theorem W5_v44
    (hf0 : ∀ c : Dev nD, (dat0 (F := Ideal) (V1 m ρ) c).arrAt 6 cfg0.N = Cert.Spec.sageRows (A := 100000) (V1 m ρ c main_arg0)
      (V1 m ρ c main_v21) (V1 m ρ c main_v22) (V1 m ρ c main_v23) (V1 m ρ c main_v24) (V1 m ρ c main_v25))
    (hf1 : ∀ c : Dev nD, (dat1 (F := Ideal) (V4 m ρ) c).arrAt 6 cfg1.N = Cert.Spec.sageRows (A := 100000) (V4 m ρ c main_v27)
      (V4 m ρ c main_v39) (V4 m ρ c main_v40) (V4 m ρ c main_v41) (V4 m ρ c main_v42) (V4 m ρ c main_v43)) (c : Dev nD) :
    (W5 m ρ c (Proc.devRef .tc main_v44) : (⟨S100000x64, .f32⟩ : BufTy).Contents (Elt Ideal)) = L2 m c := by
  refine (W5_arr m ρ c 6).trans ((hf1 c).trans ?_)
  show Cert.Spec.sageRows (A := 100000) (W4 m ρ c (Proc.devRef .tc main_v27)) (W4 m ρ c (Proc.devRef .tc main_v39))
    (W4 m ρ c (Proc.devRef .tc main_v40)) (W4 m ρ c (Proc.devRef .tc main_v41)) (W4 m ρ c (Proc.devRef .tc main_v42))
    (W4 m ρ c (Proc.devRef .tc main_v43)) = _
  rw [W4_v27_eq m ρ hf0 c, W4_v39_eq m ρ hf0 c, W4_v40 m ρ c, W4_v41 m ρ c, W4_v42 m ρ c, W4_v43 m ρ c]
  rfl

/-! ## The fourth and fifth stretches: `max · 0` again, the last matrices and rows -/

theorem W6_v45 (c : Dev nD) :
    (W6 m ρ c (Proc.devRef .tc main_v45) : (⟨S100000x64, .f32⟩ : BufTy).Contents (Elt Ideal))
      = reluH (F := Ideal) (W5 m ρ c (Proc.devRef .tc main_v44)) := by
  show StableHlo.after hostOps2 (W5 m ρ c) (Proc.devRef .tc main_v45) = _
  after_results
  rfl

theorem W7_v45 (c : Dev nD) : W7 m ρ c (Proc.devRef .tc main_v45) = W6 m ρ c (Proc.devRef .tc main_v45) :=
  StableHlo.after_of_forall_not_mem (b := Proc.devRef .tc main_v45) _ _ (not_written hostOps2_1)

theorem W7_v46 (c : Dev nD) :
    (W7 m ρ c (Proc.devRef .tc main_v46) : (⟨S64x64, .f32⟩ : BufTy).Contents (Elt Ideal)) = trH (F := Ideal) (A10 m c) := by
  show StableHlo.after hostOps2_1 (W6 m ρ c) (Proc.devRef .tc main_v46) = _
  after_results
  rw [arg_at_W5 m ρ c main_arg10 (not_written hostOps0) (by decide) (not_written hostOps1) (not_written hostOps1_1) (by decide)]
  rfl

theorem W7_v47 (c : Dev nD) :
    (W7 m ρ c (Proc.devRef .tc main_v47) : (⟨S64x64, .f32⟩ : BufTy).Contents (Elt Ideal)) = trH (F := Ideal) (A12 m c) := by
  show StableHlo.after hostOps2_1 (W6 m ρ c) (Proc.devRef .tc main_v47) = _
  after_results
  rw [arg_at_W5 m ρ c main_arg12 (not_written hostOps0) (by decide) (not_written hostOps1) (not_written hostOps1_1) (by decide)]
  rfl

theorem W7_v48 (c : Dev nD) :
    (W7 m ρ c (Proc.devRef .tc main_v48) : (⟨S1x64, .f32⟩ : BufTy).Contents (Elt Ideal)) = rowH (F := Ideal) (A11 m c) := by
  show StableHlo.after hostOps2_1 (W6 m ρ c) (Proc.devRef .tc main_v48) = _
  after_results
  rw [arg_at_W5 m ρ c main_arg11 (not_written hostOps0) (by decide) (not_written hostOps1) (not_written hostOps1_1) (by decide)]
  rfl

theorem W7_v49 (c : Dev nD) :
    (W7 m ρ c (Proc.devRef .tc main_v49) : (⟨S1x64, .f32⟩ : BufTy).Contents (Elt Ideal)) = rowH (F := Ideal) (A13 m c) := by
  show StableHlo.after hostOps2_1 (W6 m ρ c) (Proc.devRef .tc main_v49) = _
  after_results
  rw [arg_at_W5 m ρ c main_arg13 (not_written hostOps0) (by decide) (not_written hostOps1) (not_written hostOps1_1) (by decide)]
  rfl

/-! ## After region 2: the result -/

/-- The result array at the last boundary is the whole network of the launch arguments. -/
theorem W8_v50
    (hf0 : ∀ c : Dev nD, (dat0 (F := Ideal) (V1 m ρ) c).arrAt 6 cfg0.N = Cert.Spec.sageRows (A := 100000) (V1 m ρ c main_arg0)
      (V1 m ρ c main_v21) (V1 m ρ c main_v22) (V1 m ρ c main_v23) (V1 m ρ c main_v24) (V1 m ρ c main_v25))
    (hf1 : ∀ c : Dev nD, (dat1 (F := Ideal) (V4 m ρ) c).arrAt 6 cfg1.N = Cert.Spec.sageRows (A := 100000) (V4 m ρ c main_v27)
      (V4 m ρ c main_v39) (V4 m ρ c main_v40) (V4 m ρ c main_v41) (V4 m ρ c main_v42) (V4 m ρ c main_v43))
    (hf2 : ∀ c : Dev nD, (dat2 (F := Ideal) (V7 m ρ) c).arrAt 5 cfg2.N = Cert.Spec.postRows (A := 100000) (V7 m ρ c main_v45)
      (V7 m ρ c main_v46) (V7 m ρ c main_v48) (V7 m ρ c main_v47) (V7 m ρ c main_v49)) (c : Dev nD) :
    (W8 m ρ c (Proc.devRef .tc main_v50) : (⟨S100000x64, .f32⟩ : BufTy).Contents (Elt Ideal))
      = netValue (A0 m c) (A1 m c) (A2 m c) (A3 m c) (A4 m c) (A5 m c) (A6 m c) (A7 m c) (A8 m c) (A9 m c) (A10 m c) (A11 m c)
          (A12 m c) (A13 m c) := by
  rw [netValue_eq m c]
  refine (W8_arr m ρ c 5).trans ((hf2 c).trans ?_)
  show Cert.Spec.postRows (A := 100000) (W7 m ρ c (Proc.devRef .tc main_v45)) (W7 m ρ c (Proc.devRef .tc main_v46))
    (W7 m ρ c (Proc.devRef .tc main_v48)) (W7 m ρ c (Proc.devRef .tc main_v47)) (W7 m ρ c (Proc.devRef .tc main_v49)) = _
  rw [W7_v45 m ρ c, W6_v45 m ρ c, W5_v44 m ρ hf0 hf1 c, W7_v46 m ρ c, W7_v48 m ρ c, W7_v47 m ρ c, W7_v49 m ρ c]
  rfl

end Cert.Chain

end
-- ==== Proof.RefRows.lean ====
/-
  The reference program's three dense stages, read element by element, are the row-wise functions of the specification,
  on the extended reals.

    * the first layer's result is `sageRows` of the node features, their averaged neighbourhoods, the two transposed
      matrices and the two biases (`layer1`);
    * the second layer's result is `sageRows` of the rectified first layer, its averaged neighbourhoods, and the second
      layer's matrices and biases (`layer2`);
    * the final result is `postRows` of the rectified second layer through the last two affine maps (`post`).

  Each layer is read in two steps: the sum of the two matrix products and the two biases at row `p`, lane `j`, is `sagePre`
  (`pre1`, `pre2`); the lane sum of its squares from zero, the square root, the maximum with `ε` and the division then give
  `sageRows` at `(p, q)`. The averaged neighbourhoods, the rectifications, the transposed matrices and the biases as `[1, 64]`
  rows stay the terms the program computes.
-/
import proofs.«156580_j33887291966072_1_alg».proof.Proof.Gen.ReferenceIdeal.Read
import proofs.«156580_j33887291966072_1_alg».proof.Proof.Spec
import Idealize.ShloMosaic.PureOps.Ideal.Laws
import Idealize.ShloMosaic.Lib.ValueIdx

noncomputable section

namespace Cert.RefRows

open Cert.ReferenceIdeal Cert.ReferenceIdeal.Read Idealize.ShloMosaic Idealize.ShloMosaic.ValueIdx

variable [Cert.ReferenceIdeal.Facts]

/-- The layer before its normalisation, at row `p` and lane `j`. -/
theorem pre1 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (p : Fin 100000) (j : Fin 64) :
    val_main_v32 (F := Ideal) x0 x1 x2 x3 x4 x5 (ix2 p j)
      = Cert.Spec.sagePre (A := 100000) x0 (val_main_v21 (F := Ideal) x0 x1) (val_main_v22 (F := Ideal) x2) (val_main_v27 (F := Ideal) x4) (val_main_v24 (F := Ideal) x3) (val_main_v30 (F := Ideal) x5) p j := by
  have el : ∀ k : Fin 64, lidx_main_v23 (ix2 p j) k = ix2 p k := fun k => funext fun a => Fin.ext (by match a with | ⟨0, _⟩ => rfl | ⟨1, _⟩ => rfl)
  have er : ∀ k : Fin 64, ridx_main_v23 (ix2 p j) k = ix2 k j := fun k => funext fun a => Fin.ext (by match a with | ⟨0, _⟩ => rfl | ⟨1, _⟩ => rfl)
  have el' : ∀ k : Fin 64, lidx_main_v28 (ix2 p j) k = ix2 p k := fun k => funext fun a => Fin.ext (by match a with | ⟨0, _⟩ => rfl | ⟨1, _⟩ => rfl)
  have er' : ∀ k : Fin 64, ridx_main_v28 (ix2 p j) k = ix2 k j := fun k => funext fun a => Fin.ext (by match a with | ⟨0, _⟩ => rfl | ⟨1, _⟩ => rfl)
  have eb : idx_main_v25 (ix2 p j) = ix2 0 j := funext fun a => Fin.ext (by match a with | ⟨0, _⟩ => rfl | ⟨1, _⟩ => rfl)
  have eb' : idx_main_v31 (ix2 p j) = ix2 0 j := funext fun a => Fin.ext (by match a with | ⟨0, _⟩ => rfl | ⟨1, _⟩ => rfl)
  rw [val_main_v32_apply, val_main_v29_apply, val_main_v26_apply, val_main_v23_apply, val_main_v25_apply,
    val_main_v28_apply, val_main_v31_apply]
  simp only [el, er, el', er', eb, eb', Cert.Spec.sagePre, Cert.Spec.lin, Ideal.addf_def]

/-- The layer: the row divided by its Euclidean length kept above `ε`. -/
theorem layer1 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v40 (F := Ideal) x0 x1 x2 x3 x4 x5
      = Cert.Spec.sageRows (A := 100000) x0 (val_main_v21 (F := Ideal) x0 x1) (val_main_v22 (F := Ideal) x2) (val_main_v27 (F := Ideal) x4) (val_main_v24 (F := Ideal) x3) (val_main_v30 (F := Ideal) x5) := by
  funext i
  obtain ⟨p, q, rfl⟩ : ∃ (p : Fin 100000) (q : Fin 64), i = ix2 p q := ⟨i 0, i 1, eq_ix2 i⟩
  have e1 : idx_main_v39 (ix2 p q) = ix2 p 0 := funext fun a => Fin.ext (by match a with | ⟨0, _⟩ => rfl | ⟨1, _⟩ => rfl)
  have e2 : idx_main_v35 (ix2 p (0 : Fin 1)) = ix1 p := funext fun a => Fin.ext (by match a with | ⟨0, _⟩ => rfl)
  have e3 : ∀ k : Fin 64, idx_main_v34 (ix1 p) k = ix2 p k := fun k => funext fun a => Fin.ext (by match a with | ⟨0, _⟩ => rfl | ⟨1, _⟩ => rfl)
  rw [Cert.Spec.sageRows_ix2, val_main_v40_apply, val_main_v39_apply, val_main_v38_apply, val_main_v36_apply,
    val_main_v35_apply, val_main_v34_apply, val_main_v37_apply, val_main_cst_5_apply, val_main_cst_4_apply]
  simp only [e1, e2, e3, val_main_v33_apply, pre1, Ideal.hostDivf_def, Ideal.hostUnary_sqrt_def, Ideal.maximumf_def,
    Ideal.mulf_def, Ideal.ofBits_def, Ideal.ofBits_zero_f32, zero_add]

/-- The layer before its normalisation, at row `p` and lane `j`. -/
theorem pre2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (p : Fin 100000) (j : Fin 64) :
    val_main_v70 (F := Ideal) x0 x1 x2 x3 x4 x5 x6 x7 x8 x9 (ix2 p j)
      = Cert.Spec.sagePre (A := 100000) (val_main_v41 (F := Ideal) x0 x1 x2 x3 x4 x5) (val_main_v59 (F := Ideal) x0 x1 x2 x3 x4 x5) (val_main_v60 (F := Ideal) x6) (val_main_v65 (F := Ideal) x8) (val_main_v62 (F := Ideal) x7) (val_main_v68 (F := Ideal) x9) p j := by
  have el : ∀ k : Fin 64, lidx_main_v61 (ix2 p j) k = ix2 p k := fun k => funext fun a => Fin.ext (by match a with | ⟨0, _⟩ => rfl | ⟨1, _⟩ => rfl)
  have er : ∀ k : Fin 64, ridx_main_v61 (ix2 p j) k = ix2 k j := fun k => funext fun a => Fin.ext (by match a with | ⟨0, _⟩ => rfl | ⟨1, _⟩ => rfl)
  have el' : ∀ k : Fin 64, lidx_main_v66 (ix2 p j) k = ix2 p k := fun k => funext fun a => Fin.ext (by match a with | ⟨0, _⟩ => rfl | ⟨1, _⟩ => rfl)
  have er' : ∀ k : Fin 64, ridx_main_v66 (ix2 p j) k = ix2 k j := fun k => funext fun a => Fin.ext (by match a with | ⟨0, _⟩ => rfl | ⟨1, _⟩ => rfl)
  have eb : idx_main_v63 (ix2 p j) = ix2 0 j := funext fun a => Fin.ext (by match a with | ⟨0, _⟩ => rfl | ⟨1, _⟩ => rfl)
  have eb' : idx_main_v69 (ix2 p j) = ix2 0 j := funext fun a => Fin.ext (by match a with | ⟨0, _⟩ => rfl | ⟨1, _⟩ => rfl)
  rw [val_main_v70_apply, val_main_v67_apply, val_main_v64_apply, val_main_v61_apply, val_main_v63_apply,
    val_main_v66_apply, val_main_v69_apply]
  simp only [el, er, el', er', eb, eb', Cert.Spec.sagePre, Cert.Spec.lin, Ideal.addf_def]

/-- The layer: the row divided by its Euclidean length kept above `ε`. -/
theorem layer2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v78 (F := Ideal) x0 x1 x2 x3 x4 x5 x6 x7 x8 x9
      = Cert.Spec.sageRows (A := 100000) (val_main_v41 (F := Ideal) x0 x1 x2 x3 x4 x5) (val_main_v59 (F := Ideal) x0 x1 x2 x3 x4 x5) (val_main_v60 (F := Ideal) x6) (val_main_v65 (F := Ideal) x8) (val_main_v62 (F := Ideal) x7) (val_main_v68 (F := Ideal) x9) := by
  funext i
  obtain ⟨p, q, rfl⟩ : ∃ (p : Fin 100000) (q : Fin 64), i = ix2 p q := ⟨i 0, i 1, eq_ix2 i⟩
  have e1 : idx_main_v77 (ix2 p q) = ix2 p 0 := funext fun a => Fin.ext (by match a with | ⟨0, _⟩ => rfl | ⟨1, _⟩ => rfl)
  have e2 : idx_main_v73 (ix2 p (0 : Fin 1)) = ix1 p := funext fun a => Fin.ext (by match a with | ⟨0, _⟩ => rfl)
  have e3 : ∀ k : Fin 64, idx_main_v72 (ix1 p) k = ix2 p k := fun k => funext fun a => Fin.ext (by match a with | ⟨0, _⟩ => rfl | ⟨1, _⟩ => rfl)
  rw [Cert.Spec.sageRows_ix2, val_main_v78_apply, val_main_v77_apply, val_main_v76_apply, val_main_v74_apply,
    val_main_v73_apply, val_main_v72_apply, val_main_v75_apply, val_main_cst_13_apply, val_main_cst_12_apply]
  simp only [e1, e2, e3, val_main_v71_apply, pre2, Ideal.hostDivf_def, Ideal.hostUnary_sqrt_def, Ideal.maximumf_def,
    Ideal.mulf_def, Ideal.ofBits_def, Ideal.ofBits_zero_f32, zero_add]

/-- The first affine map of the last stage, at row `p` and lane `j`. -/
theorem lin3 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (p : Fin 100000) (j : Fin 64) :
    val_main_v84 (F := Ideal) x0 x1 x2 x3 x4 x5 x6 x7 x8 x9 x10 x11 (ix2 p j)
      = Cert.Spec.lin (A := 100000) (val_main_v79 (F := Ideal) x0 x1 x2 x3 x4 x5 x6 x7 x8 x9) (val_main_v80 (F := Ideal) x10)
          (val_main_v82 (F := Ideal) x11) p j := by
  have el : ∀ k : Fin 64, lidx_main_v81 (ix2 p j) k = ix2 p k := fun k => funext fun a => Fin.ext (by match a with | ⟨0, _⟩ => rfl | ⟨1, _⟩ => rfl)
  have er : ∀ k : Fin 64, ridx_main_v81 (ix2 p j) k = ix2 k j := fun k => funext fun a => Fin.ext (by match a with | ⟨0, _⟩ => rfl | ⟨1, _⟩ => rfl)
  have eb : idx_main_v83 (ix2 p j) = ix2 0 j := funext fun a => Fin.ext (by match a with | ⟨0, _⟩ => rfl | ⟨1, _⟩ => rfl)
  rw [val_main_v84_apply, val_main_v81_apply, val_main_v83_apply]
  simp only [el, er, eb, Cert.Spec.lin, Ideal.addf_def]

/-- The last stage: two affine maps in a row. -/
theorem post (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) :
    val_main_v89 (F := Ideal) x0 x1 x2 x3 x4 x5 x6 x7 x8 x9 x10 x11 x12 x13
      = Cert.Spec.postRows (A := 100000) (val_main_v79 (F := Ideal) x0 x1 x2 x3 x4 x5 x6 x7 x8 x9) (val_main_v80 (F := Ideal) x10)
          (val_main_v82 (F := Ideal) x11) (val_main_v85 (F := Ideal) x12) (val_main_v87 (F := Ideal) x13) := by
  funext i
  obtain ⟨p, q, rfl⟩ : ∃ (p : Fin 100000) (q : Fin 64), i = ix2 p q := ⟨i 0, i 1, eq_ix2 i⟩
  have el : ∀ k : Fin 64, lidx_main_v86 (ix2 p q) k = ix2 p k := fun k => funext fun a => Fin.ext (by match a with | ⟨0, _⟩ => rfl | ⟨1, _⟩ => rfl)
  have er : ∀ k : Fin 64, ridx_main_v86 (ix2 p q) k = ix2 k q := fun k => funext fun a => Fin.ext (by match a with | ⟨0, _⟩ => rfl | ⟨1, _⟩ => rfl)
  have eb : idx_main_v88 (ix2 p q) = ix2 0 q := funext fun a => Fin.ext (by match a with | ⟨0, _⟩ => rfl | ⟨1, _⟩ => rfl)
  rw [Cert.Spec.postRows_ix2, val_main_v89_apply, val_main_v86_apply, val_main_v88_apply]
  simp only [el, er, eb, lin3, Ideal.addf_def]

end Cert.RefRows

end
-- ==== Proof.RefChain.lean ====
/-
  The reference program's result is the whole network of its arguments: its three dense stages are the row-wise functions
  (read index by index in another module), and everything between them is the host-side functions by their own
  definitions — the second layer's in-degree counts are computed again from the same edge rows, so they are the same
  function `cntOf` of them. The one place where the two programs spell an operand differently: a bias as a `[1, 64]` row
  is a broadcast along a new leading axis here and a change of shape in the kernel's program; both read the bias at the lane.
-/
import proofs.«156580_j33887291966072_1_alg».proof.Proof.Gen.ReferenceIdeal.Read
import proofs.«156580_j33887291966072_1_alg».proof.Proof.Gen.KernelIdeal
import proofs.«156580_j33887291966072_1_alg».proof.Proof.RefRows
import proofs.«156580_j33887291966072_1_alg».proof.Proof.Shared
import Idealize.ShloMosaic.Lib.Pipeline.Value
import Idealize.ShloMosaic.Lib.ValueIdx

set_option maxRecDepth 16384

noncomputable section

namespace Cert.RefChain

open Cert.ReferenceIdeal Cert.ReferenceIdeal.Read Cert.Shared Idealize.ShloMosaic Idealize.ShloMosaic.ValueIdx

/-- A length-64 vector broadcast along a new leading axis of size one is that vector as a `[1, 64]` row. -/
theorem row_eq (b : (⟨S64, .f32⟩ : BufTy).Contents (Elt Ideal)) : val_main_v24 (F := Ideal) b = rowH (F := Ideal) b := by
  funext i
  obtain ⟨u, j, rfl⟩ : ∃ (u : Fin 1) (j : Fin 64), i = ix2 u j := ⟨i 0, i 1, eq_ix2 i⟩
  have hi : idx_main_v24 (ix2 u j) = ix1 j := funext fun a => Fin.ext (by match a with | ⟨0, _⟩ => rfl)
  rw [val_main_v24_apply, hi]
  unfold rowH
  refine (shapeCast_apply b _ (ix2 u j) (ix1 j) ?_).symm
  rw [Shape.rowMajor_val_one, Shape.rowMajor_val_two]
  have hu : u.val = 0 := by omega
  show j.val = u.val * 64 + j.val
  omega

theorem ref_value (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x4 : (⟨S64x64, .f32⟩ : BufTy).Contents (Elt Ideal)) (x6 : (⟨S64x64, .f32⟩ : BufTy).Contents (Elt Ideal)) (x8 : (⟨S64x64, .f32⟩ : BufTy).Contents (Elt Ideal)) (x10 : (⟨S64x64, .f32⟩ : BufTy).Contents (Elt Ideal)) (x12 : (⟨S64x64, .f32⟩ : BufTy).Contents (Elt Ideal))
    (x3 : (⟨S64, .f32⟩ : BufTy).Contents (Elt Ideal)) (x5 : (⟨S64, .f32⟩ : BufTy).Contents (Elt Ideal)) (x7 : (⟨S64, .f32⟩ : BufTy).Contents (Elt Ideal)) (x9 : (⟨S64, .f32⟩ : BufTy).Contents (Elt Ideal)) (x11 : (⟨S64, .f32⟩ : BufTy).Contents (Elt Ideal)) (x13 : (⟨S64, .f32⟩ : BufTy).Contents (Elt Ideal)) :
    val_main_v89 (F := Ideal) x0 x1 x2 x3 x4 x5 x6 x7 x8 x9 x10 x11 x12 x13
      = netValue x0 x1 x2 x3 x4 x5 x6 x7 x8 x9 x10 x11 x12 x13 := by
  have e79 : val_main_v79 (F := Ideal) x0 x1 x2 x3 x4 x5 x6 x7 x8 x9
      = reluH (F := Ideal) (val_main_v78 (F := Ideal) x0 x1 x2 x3 x4 x5 x6 x7 x8 x9) := rfl
  have e41 : val_main_v41 (F := Ideal) x0 x1 x2 x3 x4 x5 = reluH (F := Ideal) (val_main_v40 (F := Ideal) x0 x1 x2 x3 x4 x5) := rfl
  have e59 : val_main_v59 (F := Ideal) x0 x1 x2 x3 x4 x5 = propH (F := Ideal) (val_main_v41 (F := Ideal) x0 x1 x2 x3 x4 x5) x1 := rfl
  have e21 : val_main_v21 (F := Ideal) x0 x1 = propH (F := Ideal) x0 x1 := rfl
  have r30 : val_main_v30 (F := Ideal) x5 = rowH (F := Ideal) x5 := row_eq x5
  have r62 : val_main_v62 (F := Ideal) x7 = rowH (F := Ideal) x7 := row_eq x7
  have r68 : val_main_v68 (F := Ideal) x9 = rowH (F := Ideal) x9 := row_eq x9
  have r82 : val_main_v82 (F := Ideal) x11 = rowH (F := Ideal) x11 := row_eq x11
  have r87 : val_main_v87 (F := Ideal) x13 = rowH (F := Ideal) x13 := row_eq x13
  rw [Cert.RefRows.post, e79, Cert.RefRows.layer2, e59, e41, Cert.RefRows.layer1, e21, row_eq x3, r30, r62, r68, r82, r87]
  rfl

end Cert.RefChain

end
-- ==== Proof.lean ====
/-
  A two-layer neighbourhood-averaging network on 100000 nodes of 64 features and 1600000 edges, then two affine maps.

  Both programs gather each node's in-neighbours, add them up and divide by the in-degree on the host; they differ in
  the dense part. The kernel's program runs three row-blocked regions — a layer `out / max ‖out‖ ε` with
  `out = x·W_lᵀ + b_l + p·W_rᵀ + b_r` twice, each over 20 blocks of 5000 rows, and the two affine maps once — with the
  matrices transposed and the biases reshaped to rows before each region; the reference applies whole-array products,
  sums and broadcasts. At the extended reals every stage is a function of single rows: a block of rows of the result is
  the same function of the block of rows of the operands, a product into a zero accumulator is the sum over the
  contracted lane, a lane reduction is the same sum, and a change of float format is the identity. So both results are
  ONE function of the arguments, `Cert.Shared.netValue`: no law of the extended reals beyond reading sums index by
  index is used, and the precondition is never opened.

    * the kernel's program: the launch with the result array named (`Named.run_named`), the array read back through the
      stretches and regions (`Chain.W8_v50`), each region's blocks put together (`Blocks`) over the bodies' stored values
      (`Pay`);
    * the reference: its run, its dense stages read index by index (`RefRows`), composed (`RefChain.ref_value`);
    * the three frames are the runs with the result dropped; nothing was rewritten in the idealization.
-/
import proofs.«156580_j33887291966072_1_alg».proof.Defs
import proofs.«156580_j33887291966072_1_alg».proof.Proof.Gen.Kernel
import proofs.«156580_j33887291966072_1_alg».proof.Proof.Gen.Kernel.Skeleton
import proofs.«156580_j33887291966072_1_alg».proof.Proof.Gen.Kernel.Launch
import proofs.«156580_j33887291966072_1_alg».proof.Proof.Gen.Kernel.Points
import proofs.«156580_j33887291966072_1_alg».proof.Proof.Gen.Kernel.Frame
import proofs.«156580_j33887291966072_1_alg».proof.Proof.Gen.KernelIdeal
import proofs.«156580_j33887291966072_1_alg».proof.Proof.Gen.KernelIdeal.Skeleton
import proofs.«156580_j33887291966072_1_alg».proof.Proof.Gen.KernelIdeal.Launch
import proofs.«156580_j33887291966072_1_alg».proof.Proof.Gen.KernelIdeal.Points
import proofs.«156580_j33887291966072_1_alg».proof.Proof.Gen.KernelIdeal.Frame
import proofs.«156580_j33887291966072_1_alg».proof.Proof.Gen.ReferenceIdeal
import proofs.«156580_j33887291966072_1_alg».proof.Proof.Gen.Pre_finite_inputs
import proofs.«156580_j33887291966072_1_alg».proof.Proof.Gen.ReferenceIdeal.Run
import proofs.«156580_j33887291966072_1_alg».proof.Proof.Gen.ReferenceIdeal.Read
import proofs.«156580_j33887291966072_1_alg».proof.Proof.Named
import proofs.«156580_j33887291966072_1_alg».proof.Proof.Pay
import proofs.«156580_j33887291966072_1_alg».proof.Proof.Blocks
import proofs.«156580_j33887291966072_1_alg».proof.Proof.Chain
import proofs.«156580_j33887291966072_1_alg».proof.Proof.RefChain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at `netValue` of the arguments. -/
theorem algebraic : Cert.algebraic_KernelIdeal_ReferenceIdeal := by
  intro m ρ m' ρ' _ hagree
  refine ⟨fun c => Cert.Shared.netValue (Cert.Chain.A0 m c) (Cert.Chain.A1 m c) (Cert.Chain.A2 m c) (Cert.Chain.A3 m c)
    (Cert.Chain.A4 m c) (Cert.Chain.A5 m c) (Cert.Chain.A6 m c) (Cert.Chain.A7 m c) (Cert.Chain.A8 m c) (Cert.Chain.A9 m c)
    (Cert.Chain.A10 m c) (Cert.Chain.A11 m c) (Cert.Chain.A12 m c) (Cert.Chain.A13 m c), ?_, ?_⟩
  · refine (θ_run Cert.KernelIdeal.defs _ _).mono (fun r h c => ⟨(h c).1.trans ?_, (h c).2⟩)
      (Cert.KernelIdeal.Named.run_named (F := Ideal) m ρ)
    exact Cert.Chain.W8_v50 m ρ
      (fun c => Cert.Blocks.final0 (Cert.KernelIdeal.Gen.V1 m ρ) Cert.Pay.pay0_eq c)
      (fun c => Cert.Blocks.final1 (Cert.KernelIdeal.Gen.V4 m ρ) Cert.Pay.pay1_eq c)
      (fun c => Cert.Blocks.final2 (Cert.KernelIdeal.Gen.V7 m ρ) Cert.Pay.pay2_eq c) c
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v89_eq, Cert.RefChain.ref_value, h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
